-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x524288x4 : Shape := ⟨3, ![16, 524288, 4]⟩
abbrev S10x16x65536x4 : Shape := ⟨4, ![10, 16, 65536, 4]⟩
abbrev S16x9261x30 : Shape := ⟨3, ![16, 9261, 30]⟩
abbrev S16x9261 : Shape := ⟨2, ![16, 9261]⟩
abbrev S_ : Shape := ⟨0, ![]⟩

class Facts : Prop where
  bcast_S_S16x524288x4 : S_.BroadcastsInDim S16x524288x4 (![] : Fin 0 → Fin S16x524288x4.rank)
  reducesTo_S16x524288x4_S_d0_1_2 : S16x524288x4.ReducesTo [0, 1, 2] S_
  h_S_ : 0 < S_.numel
  bcast_S_S10x16x65536x4 : S_.BroadcastsInDim S10x16x65536x4 (![] : Fin 0 → Fin S10x16x65536x4.rank)
  reducesTo_S10x16x65536x4_S_d0_1_2_3 : S10x16x65536x4.ReducesTo [0, 1, 2, 3] S_

variable [Facts]

def fn {F : FTy → Type} [FloatOps F] (main_arg0 : FVec F S16x524288x4 .f32) (main_arg1 : FVec F S10x16x65536x4 .f32) (main_arg2 : IVec S16x9261x30 32) (main_arg3 : IVec S16x9261 32) : IVec S_ 1 :=
  let main_v0 : FVec F S16x524288x4 .f32 := Host.absf main_arg0
  let main_cst : FVec F S_ .f32 := constant S_ .f32 0x7F800000#32
  let main_v1 : FVec F S16x524288x4 .f32 := broadcastInDim S16x524288x4 ![] bcast_S_S16x524288x4 main_cst
  let main_v2 : IVec S16x524288x4 1 := cmpf .olt main_v0 main_v1
  let main_c : IVec S_ 1 := constantI S_ 1 1#1
  let main_v3 : IVec S_ 1 := (fun x v => Host.reduce IntOp.andi x v reducesTo_S16x524288x4_S_d0_1_2 h_S_) main_v2 main_c
  let main_v4 : FVec F S10x16x65536x4 .f32 := Host.absf main_arg1
  let main_cst_0 : FVec F S_ .f32 := constant S_ .f32 0x7F800000#32
  let main_v5 : FVec F S10x16x65536x4 .f32 := broadcastInDim S10x16x65536x4 ![] bcast_S_S10x16x65536x4 main_cst_0
  let main_v6 : IVec S10x16x65536x4 1 := cmpf .olt main_v4 main_v5
  let main_c_1 : IVec S_ 1 := constantI S_ 1 1#1
  let main_v7 : IVec S_ 1 := (fun x v => Host.reduce IntOp.andi x v reducesTo_S10x16x65536x4_S_d0_1_2_3 h_S_) main_v6 main_c_1
  let main_v8 : IVec S_ 1 := andi main_v3 main_v7
  main_v8
-- ==== Kernel.lean ====
abbrev S16x524288x4 : Shape := ⟨3, ![16, 524288, 4]⟩
abbrev S10x16x65536x4 : Shape := ⟨4, ![10, 16, 65536, 4]⟩
abbrev S16x9261x30 : Shape := ⟨3, ![16, 9261, 30]⟩
abbrev S16x9261 : Shape := ⟨2, ![16, 9261]⟩
abbrev S_ : Shape := ⟨0, ![]⟩
abbrev S16x9261x30x1 : Shape := ⟨4, ![16, 9261, 30, 1]⟩
abbrev S16x9261x30x4 : Shape := ⟨4, ![16, 9261, 30, 4]⟩
abbrev S16x9261x1 : Shape := ⟨3, ![16, 9261, 1]⟩
abbrev S16x10x65536x4 : Shape := ⟨4, ![16, 10, 65536, 4]⟩
abbrev S16x10x9261x4 : Shape := ⟨4, ![16, 10, 9261, 4]⟩
abbrev S16x9261x10x4 : Shape := ⟨4, ![16, 9261, 10, 4]⟩
abbrev S16x1x128 : Shape := ⟨3, ![16, 1, 128]⟩
abbrev S1x441x30x4 : Shape := ⟨4, ![1, 441, 30, 4]⟩
abbrev S1x441x10x4 : Shape := ⟨4, ![1, 441, 10, 4]⟩
abbrev S1x1x128 : Shape := ⟨3, ![1, 1, 128]⟩
abbrev S1x128 : Shape := ⟨2, ![1, 128]⟩
abbrev S441x30x4 : Shape := ⟨3, ![441, 30, 4]⟩
abbrev S441x10x4 : Shape := ⟨3, ![441, 10, 4]⟩
abbrev S441x30 : Shape := ⟨2, ![441, 30]⟩
abbrev S441x30x1 : Shape := ⟨3, ![441, 30, 1]⟩
abbrev S441x10 : Shape := ⟨2, ![441, 10]⟩
abbrev S441x1x10 : Shape := ⟨3, ![441, 1, 10]⟩
abbrev S441x30x1x4 : Shape := ⟨4, ![441, 30, 1, 4]⟩
abbrev S441x1x10x4 : Shape := ⟨4, ![441, 1, 10, 4]⟩
abbrev S441x30x10x4 : Shape := ⟨4, ![441, 30, 10, 4]⟩
abbrev S441x30x10 : Shape := ⟨3, ![441, 30, 10]⟩
abbrev S441x30x10x1 : Shape := ⟨4, ![441, 30, 10, 1]⟩
abbrev S441 : Shape := ⟨1, ![441]⟩
abbrev S1x441 : Shape := ⟨2, ![1, 441]⟩
abbrev S1 : Shape := ⟨1, ![1]⟩
abbrev S1x1 : Shape := ⟨2, ![1, 1]⟩
abbrev S441x1x30x4 : Shape := ⟨4, ![441, 1, 30, 4]⟩
abbrev S441x30x30x4 : Shape := ⟨4, ![441, 30, 30, 4]⟩
abbrev S441x30x30 : Shape := ⟨3, ![441, 30, 30]⟩
abbrev S441x1x30 : Shape := ⟨3, ![441, 1, 30]⟩
abbrev S16x1x1 : Shape := ⟨3, ![16, 1, 1]⟩
abbrev S16 : Shape := ⟨1, ![16]⟩

abbrev nBuf : Space → Nat
  | .hbm => 41
  | .vmem => 8
  | .smem => 0
  | _ => 0

abbrev bufTy : (tb : Table) → Fin (tcTables nBuf tb) → BufTy
  | .hbm, ⟨0, _⟩ => ⟨S16x524288x4, .f32⟩
  | .hbm, ⟨1, _⟩ => ⟨S10x16x65536x4, .f32⟩
  | .hbm, ⟨2, _⟩ => ⟨S16x9261x30, .i32⟩
  | .hbm, ⟨3, _⟩ => ⟨S16x9261, .i32⟩
  | .hbm, ⟨4, _⟩ => ⟨S_, .i32⟩
  | .hbm, ⟨5, _⟩ => ⟨S16x9261x30, .i32⟩
  | .hbm, ⟨6, _⟩ => ⟨S16x9261x30, .i1⟩
  | .hbm, ⟨7, _⟩ => ⟨S_, .i32⟩
  | .hbm, ⟨8, _⟩ => ⟨S16x9261x30, .i32⟩
  | .hbm, ⟨9, _⟩ => ⟨S16x9261x30, .i32⟩
  | .hbm, ⟨10, _⟩ => ⟨S16x9261x30, .i32⟩
  | .hbm, ⟨11, _⟩ => ⟨S16x9261x30x1, .i32⟩
  | .hbm, ⟨12, _⟩ => ⟨S16x9261x30x4, .f32⟩
  | .hbm, ⟨13, _⟩ => ⟨S_, .i32⟩
  | .hbm, ⟨14, _⟩ => ⟨S16x9261, .i32⟩
  | .hbm, ⟨15, _⟩ => ⟨S16x9261, .i1⟩
  | .hbm, ⟨16, _⟩ => ⟨S_, .i32⟩
  | .hbm, ⟨17, _⟩ => ⟨S16x9261, .i32⟩
  | .hbm, ⟨18, _⟩ => ⟨S16x9261, .i32⟩
  | .hbm, ⟨19, _⟩ => ⟨S16x9261, .i32⟩
  | .hbm, ⟨20, _⟩ => ⟨S16x9261x1, .i32⟩
  | .hbm, ⟨21, _⟩ => ⟨S16x10x65536x4, .f32⟩
  | .hbm, ⟨22, _⟩ => ⟨S16x10x9261x4, .f32⟩
  | .hbm, ⟨23, _⟩ => ⟨S16x9261x10x4, .f32⟩
  | .hbm, ⟨24, _⟩ => ⟨S16x1x128, .f32⟩
  | .hbm, ⟨25, _⟩ => ⟨S16x1x128, .f32⟩
  | .hbm, ⟨26, _⟩ => ⟨S16x1x1, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16x1x1, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1x441x30x4, .f32⟩
  | .local _ .vmem, ⟨1, _⟩ => ⟨S1x441x30x4, .f32⟩
  | .local _ .vmem, ⟨2, _⟩ => ⟨S1x441x10x4, .f32⟩
  | .local _ .vmem, ⟨3, _⟩ => ⟨S1x441x10x4, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S16x524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 21], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x441x30x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x441x10x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16x9261x30 : S_.BroadcastsInDim S16x9261x30 (![] : Fin 0 → Fin S16x9261x30.rank)
  bcast_S16x9261x30_S16x9261x30x1_0_1_2 : S16x9261x30.BroadcastsInDim S16x9261x30x1 (![0, 1, 2] : Fin 3 → Fin S16x9261x30x1.rank)
  bcast_S_S16x9261 : S_.BroadcastsInDim S16x9261 (![] : Fin 0 → Fin S16x9261.rank)
  bcast_S16x9261_S16x9261x1_0_1 : S16x9261.BroadcastsInDim S16x9261x1 (![0, 1] : Fin 2 → Fin S16x9261x1.rank)
  transposes_S10x16x65536x4_S16x10x65536x4_1_0_2_3 : S10x16x65536x4.Transposes [1, 0, 2, 3] S16x10x65536x4
  transposes_S16x10x9261x4_S16x9261x10x4_0_2_1_3 : S16x10x9261x4.Transposes [0, 2, 1, 3] S16x9261x10x4
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x441x30x4_S1x441x30x4_0_0_0_0 : ∀ a, (![0, 0, 0, 0] : Fin 4 → Nat) a + S1x441x30x4.size a ≤ S1x441x30x4.size a
  h_S1x441x30x4 : 0 < S1x441x30x4.numel
  shapeCasts_S1x441x30x4_S441x30x4 : S1x441x30x4.ShapeCasts S441x30x4
  inb_S1x441x10x4_S1x441x10x4_0_0_0_0 : ∀ a, (![0, 0, 0, 0] : Fin 4 → Nat) a + S1x441x10x4.size a ≤ S1x441x10x4.size a
  h_S1x441x10x4 : 0 < S1x441x10x4.numel
  shapeCasts_S1x441x10x4_S441x10x4 : S1x441x10x4.ShapeCasts S441x10x4
  reduces_S441x30x4_S441x30 : S441x30x4.Reduces [2] S441x30
  shapeCasts_S441x30_S441x30x1 : S441x30.ShapeCasts S441x30x1
  reduces_S441x10x4_S441x10 : S441x10x4.Reduces [2] S441x10
  shapeCasts_S441x10_S441x1x10 : S441x10.ShapeCasts S441x1x10
  shapeCasts_S441x30x4_S441x30x1x4 : S441x30x4.ShapeCasts S441x30x1x4
  shapeCasts_S441x10x4_S441x1x10x4 : S441x10x4.ShapeCasts S441x1x10x4
  broadcasts_S441x30x1x4_S441x30x10x4 : S441x30x1x4.Broadcasts S441x30x10x4
  broadcasts_S441x1x10x4_S441x30x10x4 : S441x1x10x4.Broadcasts S441x30x10x4
  reduces_S441x30x10x4_S441x30x10 : S441x30x10x4.Reduces [3] S441x30x10
  broadcasts_S441x30x1_S441x30x10 : S441x30x1.Broadcasts S441x30x10
  broadcasts_S441x1x10_S441x30x10 : S441x1x10.Broadcasts S441x30x10
  reduces_S441x30x10_S441x30 : S441x30x10.Reduces [2] S441x30
  shapeCasts_S441x30x10_S441x30x10x1 : S441x30x10.ShapeCasts S441x30x10x1
  broadcasts_S441x30x10x1_S441x30x10x4 : S441x30x10x1.Broadcasts S441x30x10x4
  reduces_S441x30x10x4_S441x30x4 : S441x30x10x4.Reduces [2] S441x30x4
  reduces_S441x30_S441 : S441x30.Reduces [1] S441
  shapeCasts_S441_S1x441 : S441.ShapeCasts S1x441
  reduces_S1x441_S1 : S1x441.Reduces [1] S1
  shapeCasts_S1_S1x1 : S1.ShapeCasts S1x1
  inpos_S1x1_p0_0 : ∀ a, (![0, 0] : Fin 2 → Nat) a < S1x1.size a
  shapeCasts_S441x30x4_S441x1x30x4 : S441x30x4.ShapeCasts S441x1x30x4
  broadcasts_S441x30x1x4_S441x30x30x4 : S441x30x1x4.Broadcasts S441x30x30x4
  broadcasts_S441x1x30x4_S441x30x30x4 : S441x1x30x4.Broadcasts S441x30x30x4
  reduces_S441x30x30x4_S441x30x30 : S441x30x30x4.Reduces [3] S441x30x30
  shapeCasts_S441x30_S441x1x30 : S441x30.ShapeCasts S441x1x30
  broadcasts_S441x30x1_S441x30x30 : S441x30x1.Broadcasts S441x30x30
  broadcasts_S441x1x30_S441x30x30 : S441x1x30.Broadcasts S441x30x30
  reduces_S441x30x30_S441x30 : S441x30x30.Reduces [2] S441x30
  iota_S1x128_d1_w32 : S1x128.Iotas .tc 32 [1]
  slices_S16x1x128_S16x1x1_0_0_0 : S16x1x128.Slices ![0, 0, 0] S16x1x1
  shapeCasts_S16x1x1_S16 : S16x1x1.ShapeCasts S16
  bcast_S_S16 : S_.BroadcastsInDim S16 (![] : Fin 0 → Fin S16.rank)
  reducesTo_S16_S_d0 : S16.ReducesTo [0] S_
  h_S_ : 0 < S_.numel
  gather_S16x524288x4_S16x9261x30x1_S16x9261x30x4_3_1_0_0_1_3_114_wf : GatherDims.WF S16x524288x4 S16x9261x30x1 S16x9261x30x4 [3] [1] [0] [1] [0] 3 ![1, 1, 4]
  gather_S16x10x65536x4_S16x9261x1_S16x10x9261x4_13_2_0_0_2_2_11014_wf : GatherDims.WF S16x10x65536x4 S16x9261x1 S16x10x9261x4 [1, 3] [2] [0] [2] [0] 2 ![1, 10, 1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x441x30x4.size a ≤ S16x9261x30x4.size a
  hwx0_0 : ∀ i : grid0.Coords, EltTy.bits .f32 = 32 ∨ (Rect.block (s := S16x9261x30x4) S1x441x30x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x441x10x4.size a ≤ S16x9261x10x4.size a
  hwx0_1 : ∀ i : grid0.Coords, EltTy.bits .f32 = 32 ∨ (Rect.block (s := S16x9261x10x4) S1x441x10x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

def gather_S16x524288x4_S16x9261x30x1_S16x9261x30x4_3_1_0_0_1_3_114 : GatherDims S16x524288x4 S16x9261x30x1 S16x9261x30x4 where
  offsetDims := [3]
  collapsedSliceDims := [1]
  operandBatchingDims := [0]
  startIndicesBatchingDims := [0]
  startIndexMap := [1]
  indexVectorDim := 3
  sliceSizes := ![1, 1, 4]
  wf := gather_S16x524288x4_S16x9261x30x1_S16x9261x30x4_3_1_0_0_1_3_114_wf
def gather_S16x10x65536x4_S16x9261x1_S16x10x9261x4_13_2_0_0_2_2_11014 : GatherDims S16x10x65536x4 S16x9261x1 S16x10x9261x4 where
  offsetDims := [1, 3]
  collapsedSliceDims := [2]
  operandBatchingDims := [0]
  startIndicesBatchingDims := [0]
  startIndexMap := [2]
  indexVectorDim := 2
  sliceSizes := ![1, 10, 1, 4]
  wf := gather_S16x10x65536x4_S16x9261x1_S16x10x9261x4_13_2_0_0_2_2_11014_wf

abbrev win0_0 : Pipeline.Window sig grid0 :=
  Pipeline.Window.ofSpec (Memref.whole main_v6) S1x441x30x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x441x10x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x524288x4 : Shape := ⟨3, ![16, 524288, 4]⟩
abbrev S10x16x65536x4 : Shape := ⟨4, ![10, 16, 65536, 4]⟩
abbrev S16x9261x30 : Shape := ⟨3, ![16, 9261, 30]⟩
abbrev S16x9261 : Shape := ⟨2, ![16, 9261]⟩
abbrev S_ : Shape := ⟨0, ![]⟩
abbrev S16x9261x30x1 : Shape := ⟨4, ![16, 9261, 30, 1]⟩
abbrev S16x9261x30x4 : Shape := ⟨4, ![16, 9261, 30, 4]⟩
abbrev S16x9261x1 : Shape := ⟨3, ![16, 9261, 1]⟩
abbrev S16x10x65536x4 : Shape := ⟨4, ![16, 10, 65536, 4]⟩
abbrev S16x10x9261x4 : Shape := ⟨4, ![16, 10, 9261, 4]⟩
abbrev S16x9261x10x4 : Shape := ⟨4, ![16, 9261, 10, 4]⟩
abbrev S16x9261x10 : Shape := ⟨3, ![16, 9261, 10]⟩
abbrev S16x9261x1x10 : Shape := ⟨4, ![16, 9261, 1, 10]⟩
abbrev S16x9261x30x10 : Shape := ⟨4, ![16, 9261, 30, 10]⟩
abbrev S16 : Shape := ⟨1, ![16]⟩
abbrev S16x9261x1x30 : Shape := ⟨4, ![16, 9261, 1, 30]⟩
abbrev S16x9261x30x30 : Shape := ⟨4, ![16, 9261, 30, 30]⟩

abbrev nBuf : Space → Nat
  | .hbm => 98
  | .vmem => 0
  | .smem => 0
  | _ => 0

abbrev bufTy : (tb : Table) → Fin (tcTables nBuf tb) → BufTy
  | .hbm, ⟨0, _⟩ => ⟨S16x524288x4, .f32⟩
  | .hbm, ⟨1, _⟩ => ⟨S10x16x65536x4, .f32⟩
  | .hbm, ⟨2, _⟩ => ⟨S16x9261x30, .i32⟩
  | .hbm, ⟨3, _⟩ => ⟨S16x9261, .i32⟩
  | .hbm, ⟨4, _⟩ => ⟨S_, .i32⟩
  | .hbm, ⟨5, _⟩ => ⟨S16x9261x30, .i32⟩
  | .hbm, ⟨6, _⟩ => ⟨S16x9261x30, .i1⟩
  | .hbm, ⟨7, _⟩ => ⟨S_, .i32⟩
  | .hbm, ⟨8, _⟩ => ⟨S16x9261x30, .i32⟩
  | .hbm, ⟨9, _⟩ => ⟨S16x9261x30, .i32⟩
  | .hbm, ⟨10, _⟩ => ⟨S16x9261x30, .i32⟩
  | .hbm, ⟨11, _⟩ => ⟨S16x9261x30x1, .i32⟩
  | .hbm, ⟨12, _⟩ => ⟨S16x9261x30x4, .f32⟩
  | .hbm, ⟨13, _⟩ => ⟨S_, .i32⟩
  | .hbm, ⟨14, _⟩ => ⟨S16x9261, .i32⟩
  | .hbm, ⟨15, _⟩ => ⟨S16x9261, .i1⟩
  | .hbm, ⟨16, _⟩ => ⟨S_, .i32⟩
  | .hbm, ⟨17, _⟩ => ⟨S16x9261, .i32⟩
  | .hbm, ⟨18, _⟩ => ⟨S16x9261, .i32⟩
  | .hbm, ⟨19, _⟩ => ⟨S16x9261, .i32⟩
  | .hbm, ⟨20, _⟩ => ⟨S16x9261x1, .i32⟩
  | .hbm, ⟨21, _⟩ => ⟨S16x10x65536x4, .f32⟩
  | .hbm, ⟨22, _⟩ => ⟨S16x10x9261x4, .f32⟩
  | .hbm, ⟨23, _⟩ => ⟨S16x9261x10x4, .f32⟩
  | .hbm, ⟨24, _⟩ => ⟨S16x9261x30x4, .f32⟩
  | .hbm, ⟨25, _⟩ => ⟨S_, .f32⟩
  | .hbm, ⟨26, _⟩ => ⟨S16x9261x30, .f32⟩
  | .hbm, ⟨27, _⟩ => ⟨S16x9261x30x1, .f32⟩
  | .hbm, ⟨28, _⟩ => ⟨S16x9261x10x4, .f32⟩
  | .hbm, ⟨29, _⟩ => ⟨S_, .f32⟩
  | .hbm, ⟨30, _⟩ => ⟨S16x9261x10, .f32⟩
  | .hbm, ⟨31, _⟩ => ⟨S16x9261x1x10, .f32⟩
  | .hbm, ⟨32, _⟩ => ⟨S16x9261x30x10, .f32⟩
  | .hbm, ⟨33, _⟩ => ⟨S16x9261x30x10, .f32⟩
  | .hbm, ⟨34, _⟩ => ⟨S16x9261x30x10, .f32⟩
  | .hbm, ⟨35, _⟩ => ⟨S16x9261x30x10, .f32⟩
  | .hbm, ⟨36, _⟩ => ⟨S_, .f32⟩
  | .hbm, ⟨37, _⟩ => ⟨S16x9261x30x10, .f32⟩
  | .hbm, ⟨38, _⟩ => ⟨S16x9261x30x10, .f32⟩
  | .hbm, ⟨39, _⟩ => ⟨S16x9261x30x10, .f32⟩
  | .hbm, ⟨40, _⟩ => ⟨S16x9261x30x10, .f32⟩
  | .hbm, ⟨41, _⟩ => ⟨S_, .f32⟩
  | .hbm, ⟨42, _⟩ => ⟨S16x9261x30x10, .f32⟩
  | .hbm, ⟨43, _⟩ => ⟨S16x9261x30x10, .f32⟩
  | .hbm, ⟨44, _⟩ => ⟨S16x9261x30x10, .f32⟩
  | .hbm, ⟨45, _⟩ => ⟨S_, .f32⟩
  | .hbm, ⟨46, _⟩ => ⟨S16x9261x30, .f32⟩
  | .hbm, ⟨47, _⟩ => ⟨S16x9261x30x1, .f32⟩
  | .hbm, ⟨48, _⟩ => ⟨S_, .f32⟩
  | .hbm, ⟨49, _⟩ => ⟨S16x9261x30x1, .f32⟩
  | .hbm, ⟨50, _⟩ => ⟨S16x9261x30x1, .f32⟩
  | .hbm, ⟨51, _⟩ => ⟨S16x9261x30x10, .f32⟩
  | .hbm, ⟨52, _⟩ => ⟨S16x9261x30x10, .f32⟩
  | .hbm, ⟨53, _⟩ => ⟨S16x9261x30x4, .f32⟩
  | .hbm, ⟨54, _⟩ => ⟨S16x9261x30x4, .f32⟩
  | .hbm, ⟨55, _⟩ => ⟨S16x9261x30x4, .f32⟩
  | .hbm, ⟨56, _⟩ => ⟨S_, .f32⟩
  | .hbm, ⟨57, _⟩ => ⟨S16x9261x30, .f32⟩
  | .hbm, ⟨58, _⟩ => ⟨S_, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16x9261x30x4, .f32⟩
  | .hbm, ⟨64, _⟩ => ⟨S_, .f32⟩
  | .hbm, ⟨65, _⟩ => ⟨S16x9261x30, .f32⟩
  | .hbm, ⟨66, _⟩ => ⟨S16x9261x30x1, .f32⟩
  | .hbm, ⟨67, _⟩ => ⟨S16x9261x1x30, .f32⟩
  | .hbm, ⟨68, _⟩ => ⟨S16x9261x30x30, .f32⟩
  | .hbm, ⟨69, _⟩ => ⟨S16x9261x30x30, .f32⟩
  | .hbm, ⟨70, _⟩ => ⟨S16x9261x30x30, .f32⟩
  | .hbm, ⟨71, _⟩ => ⟨S16x9261x30x30, .f32⟩
  | .hbm, ⟨72, _⟩ => ⟨S_, .f32⟩
  | .hbm, ⟨73, _⟩ => ⟨S16x9261x30x30, .f32⟩
  | .hbm, ⟨74, _⟩ => ⟨S16x9261x30x30, .f32⟩
  | .hbm, ⟨75, _⟩ => ⟨S16x9261x30x30, .f32⟩
  | .hbm, ⟨76, _⟩ => ⟨S_, .f32⟩
  | .hbm, ⟨77, _⟩ => ⟨S16x9261x30x30, .f32⟩
  | .hbm, ⟨78, _⟩ => ⟨S16x9261x30x30, .f32⟩
  | .hbm, ⟨79, _⟩ => ⟨S_, .f32⟩
  | .hbm, ⟨80, _⟩ => ⟨S16x9261x30x30, .f32⟩
  | .hbm, ⟨81, _⟩ => ⟨S16x9261x30x30, .f32⟩
  | .hbm, ⟨82, _⟩ => ⟨S_, .f32⟩
  | .hbm, ⟨83, _⟩ => ⟨S16x9261x30x30, .f32⟩
  | .hbm, ⟨84, _⟩ => ⟨S16x9261x30x30, .f32⟩
  | .hbm, ⟨85, _⟩ => ⟨S_, .f32⟩
  | .hbm, ⟨86, _⟩ => ⟨S16x9261x30x30, .f32⟩
  | .hbm, ⟨87, _⟩ => ⟨S16x9261x30x30, .f32⟩
  | .hbm, ⟨88, _⟩ => ⟨S_, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S16x524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_cst_19 : Ref sig .tc := ⟨.hbm, 93, rfl⟩
abbrev main_v68 : Ref sig .tc := ⟨.hbm, 94, rfl⟩
abbrev main_cst_20 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  bcast_S_S16x9261x30 : S_.BroadcastsInDim S16x9261x30 (![] : Fin 0 → Fin S16x9261x30.rank)
  bcast_S16x9261x30_S16x9261x30x1_0_1_2 : S16x9261x30.BroadcastsInDim S16x9261x30x1 (![0, 1, 2] : Fin 3 → Fin S16x9261x30x1.rank)
  bcast_S_S16x9261 : S_.BroadcastsInDim S16x9261 (![] : Fin 0 → Fin S16x9261.rank)
  bcast_S16x9261_S16x9261x1_0_1 : S16x9261.BroadcastsInDim S16x9261x1 (![0, 1] : Fin 2 → Fin S16x9261x1.rank)
  transposes_S10x16x65536x4_S16x10x65536x4_1_0_2_3 : S10x16x65536x4.Transposes [1, 0, 2, 3] S16x10x65536x4
  transposes_S16x10x9261x4_S16x9261x10x4_0_2_1_3 : S16x10x9261x4.Transposes [0, 2, 1, 3] S16x9261x10x4
  reducesTo_S16x9261x30x4_S16x9261x30_d3 : S16x9261x30x4.ReducesTo [3] S16x9261x30
  h_S_ : 0 < S_.numel
  reducesTo_S16x9261x10x4_S16x9261x10_d3 : S16x9261x10x4.ReducesTo [3] S16x9261x10
  bcast_S16x9261x10_S16x9261x1x10_0_1_3 : S16x9261x10.BroadcastsInDim S16x9261x1x10 (![0, 1, 3] : Fin 3 → Fin S16x9261x1x10.rank)
  bcast_S16x9261x30x1_S16x9261x30x10_0_1_2_3 : S16x9261x30x1.BroadcastsInDim S16x9261x30x10 (![0, 1, 2, 3] : Fin 4 → Fin S16x9261x30x10.rank)
  bcast_S16x9261x1x10_S16x9261x30x10_0_1_2_3 : S16x9261x1x10.BroadcastsInDim S16x9261x30x10 (![0, 1, 2, 3] : Fin 4 → Fin S16x9261x30x10.rank)
  bcast_S_S16x9261x30x10 : S_.BroadcastsInDim S16x9261x30x10 (![] : Fin 0 → Fin S16x9261x30x10.rank)
  reducesTo_S16x9261x30x10_S16x9261x30_d3 : S16x9261x30x10.ReducesTo [3] S16x9261x30
  bcast_S_S16x9261x30x1 : S_.BroadcastsInDim S16x9261x30x1 (![] : Fin 0 → Fin S16x9261x30x1.rank)
  reducesTo_S16x9261x30_S16_d1_2 : S16x9261x30.ReducesTo [1, 2] S16
  bcast_S_S16 : S_.BroadcastsInDim S16 (![] : Fin 0 → Fin S16.rank)
  bcast_S16x9261x30_S16x9261x1x30_0_1_3 : S16x9261x30.BroadcastsInDim S16x9261x1x30 (![0, 1, 3] : Fin 3 → Fin S16x9261x1x30.rank)
  bcast_S16x9261x30x1_S16x9261x30x30_0_1_2_3 : S16x9261x30x1.BroadcastsInDim S16x9261x30x30 (![0, 1, 2, 3] : Fin 4 → Fin S16x9261x30x30.rank)
  bcast_S16x9261x1x30_S16x9261x30x30_0_1_2_3 : S16x9261x1x30.BroadcastsInDim S16x9261x30x30 (![0, 1, 2, 3] : Fin 4 → Fin S16x9261x30x30.rank)
  bcast_S_S16x9261x30x30 : S_.BroadcastsInDim S16x9261x30x30 (![] : Fin 0 → Fin S16x9261x30x30.rank)
  reducesTo_S16x9261x30x30_S16_d1_2_3 : S16x9261x30x30.ReducesTo [1, 2, 3] S16
  reducesTo_S16_S_d0 : S16.ReducesTo [0] S_
  gather_S16x524288x4_S16x9261x30x1_S16x9261x30x4_3_1_0_0_1_3_114_wf : GatherDims.WF S16x524288x4 S16x9261x30x1 S16x9261x30x4 [3] [1] [0] [1] [0] 3 ![1, 1, 4]
  gather_S16x10x65536x4_S16x9261x1_S16x10x9261x4_13_2_0_0_2_2_11014_wf : GatherDims.WF S16x10x65536x4 S16x9261x1 S16x10x9261x4 [1, 3] [2] [0] [2] [0] 2 ![1, 10, 1, 4]
  dot_S16x9261x30x4_S16x9261x10x4_S16x9261x30x10_3_3_2_2_01_01_wf : DotDims.WF S16x9261x30x4 S16x9261x10x4 S16x9261x30x10 [3] [3] [2] [2] [0, 1] [0, 1]
  dot_S16x9261x30x10_S16x9261x10x4_S16x9261x30x4_3_2_2_3_01_01_wf : DotDims.WF S16x9261x30x10 S16x9261x10x4 S16x9261x30x4 [3] [2] [2] [3] [0, 1] [0, 1]
  dot_S16x9261x30x4_S16x9261x30x4_S16x9261x30x30_3_3_2_2_01_01_wf : DotDims.WF S16x9261x30x4 S16x9261x30x4 S16x9261x30x30 [3] [3] [2] [2] [0, 1] [0, 1]

variable [Facts₀]

def gather_S16x524288x4_S16x9261x30x1_S16x9261x30x4_3_1_0_0_1_3_114 : GatherDims S16x524288x4 S16x9261x30x1 S16x9261x30x4 where
  offsetDims := [3]
  collapsedSliceDims := [1]
  operandBatchingDims := [0]
  startIndicesBatchingDims := [0]
  startIndexMap := [1]
  indexVectorDim := 3
  sliceSizes := ![1, 1, 4]
  wf := gather_S16x524288x4_S16x9261x30x1_S16x9261x30x4_3_1_0_0_1_3_114_wf
def gather_S16x10x65536x4_S16x9261x1_S16x10x9261x4_13_2_0_0_2_2_11014 : GatherDims S16x10x65536x4 S16x9261x1 S16x10x9261x4 where
  offsetDims := [1, 3]
  collapsedSliceDims := [2]
  operandBatchingDims := [0]
  startIndicesBatchingDims := [0]
  startIndexMap := [2]
  indexVectorDim := 2
  sliceSizes := ![1, 10, 1, 4]
  wf := gather_S16x10x65536x4_S16x9261x1_S16x10x9261x4_13_2_0_0_2_2_11014_wf
def dot_S16x9261x30x4_S16x9261x10x4_S16x9261x30x10_3_3_2_2_01_01 : DotDims S16x9261x30x4 S16x9261x10x4 S16x9261x30x10 where
  lhsContracting := [3]
  rhsContracting := [3]
  lhsNonContracting := [2]
  rhsNonContracting := [2]
  lhsBatch := [0, 1]
  rhsBatch := [0, 1]
  wf := dot_S16x9261x30x4_S16x9261x10x4_S16x9261x30x10_3_3_2_2_01_01_wf
def dot_S16x9261x30x10_S16x9261x10x4_S16x9261x30x4_3_2_2_3_01_01 : DotDims S16x9261x30x10 S16x9261x10x4 S16x9261x30x4 where
  lhsContracting := [3]
  rhsContracting := [2]
  lhsNonContracting := [2]
  rhsNonContracting := [3]
  lhsBatch := [0, 1]
  rhsBatch := [0, 1]
  wf := dot_S16x9261x30x10_S16x9261x10x4_S16x9261x30x4_3_2_2_3_01_01_wf
def dot_S16x9261x30x4_S16x9261x30x4_S16x9261x30x30_3_3_2_2_01_01 : DotDims S16x9261x30x4 S16x9261x30x4 S16x9261x30x30 where
  lhsContracting := [3]
  rhsContracting := [3]
  lhsNonContracting := [2]
  rhsNonContracting := [2]
  lhsBatch := [0, 1]
  rhsBatch := [0, 1]
  wf := dot_S16x9261x30x4_S16x9261x30x4_S16x9261x30x30_3_3_2_2_01_01_wf

class Facts : Prop extends Facts₀ where

variable [Facts]
-- ==== Proof.Spec.lean ====
/-
  The mathematics of one row. A row is one query point of one level: its thirty embeddings
  `E t` (t < 30, four features each) and its ten centroids `C k` (k < 10, four features each),
  all extended reals. Everything both programs compute is a sum over rows of two row functions:

    dist t k   = (|E t|² + |C k|²) - 2·⟨E t, C k⟩            squared distance, by the expanded formula
    wt t k     = exp (-(dist t k) / bw)                      unnormalised soft assignment
    sa t k     = wt t k / (Σ_k' wt t k' + epsA)              soft assignment
    sc t f     = Σ_k sa t k · C k f                          soft centroid of embedding t
    pull t     = Σ_f (E t f - sc t f)²                       the pull term of embedding t
    sn t       = Σ_f (sc t f)²
    push t s   = 1 / (epsP + max ((sn t + sn s) - 2·⟨sc t, sc s⟩, 0) / 2)   the push term of a pair

  The float literals stay as their bit patterns (the same words on both sides are never evaluated).
  The last section regroups a sum over 9261 = 21 · 441 rows into 21 tiles of 441 rows: addition of
  extended reals is commutative and associative, so no finiteness is needed.
-/
import Idealize.ShloMosaic.PureOps.Ideal
import Idealize.ShloMosaic.PureOps.Ideal.Laws
import Idealize.ShloMosaic.Lib.ValueIdx

noncomputable section

namespace Cert.Spec

open Idealize.ShloMosaic

/-- The literals of the two programs, as the extended reals their bit patterns denote. -/
abbrev two : EReal := Ideal.ofBits .f32 0x40000000#32
abbrev bw : EReal := Ideal.ofBits .f32 0x32ABCC77#32
abbrev epsA : EReal := Ideal.ofBits .f32 0x2EDBE6FF#32
abbrev epsP : EReal := Ideal.ofBits .f32 0x26901D7D#32
abbrev one : EReal := Ideal.ofBits .f32 0x3F800000#32
abbrev nPush : EReal := Ideal.ofBits .f32 0x4AFE5C68#32
abbrev nPull : EReal := Ideal.ofBits .f32 0x4887A8C0#32

section Row

variable (E : Fin 30 → Fin 4 → EReal) (C : Fin 10 → Fin 4 → EReal)

/-- Squared distance between embedding `t` and centroid `k`, by the expanded formula. -/
def dist (t : Fin 30) (k : Fin 10) : EReal :=
  ((∑ f : Fin 4, E t f * E t f) + (∑ f : Fin 4, C k f * C k f)) - two * ∑ f : Fin 4, E t f * C k f

/-- The unnormalised soft assignment. -/
def wt (t : Fin 30) (k : Fin 10) : EReal := Ideal.exp (Ideal.div (-(dist E C t k)) bw)

/-- The soft assignment of embedding `t` to centroid `k`. -/
def sa (t : Fin 30) (k : Fin 10) : EReal := Ideal.div (wt E C t k) ((∑ k' : Fin 10, wt E C t k') + epsA)

/-- The soft centroid of embedding `t`, feature `f`. -/
def sc (t : Fin 30) (f : Fin 4) : EReal := ∑ k : Fin 10, sa E C t k * C k f

/-- The pull term of embedding `t`: its squared distance to its soft centroid. -/
def pull (t : Fin 30) : EReal := ∑ f : Fin 4, (E t f - sc E C t f) * (E t f - sc E C t f)

/-- The squared norm of the soft centroid of embedding `t`. -/
def sn (t : Fin 30) : EReal := ∑ f : Fin 4, sc E C t f * sc E C t f

/-- The push term of the pair of embeddings `(t, s)`. -/
def push (t s : Fin 30) : EReal :=
  Ideal.div one (epsP + Ideal.div (max ((sn E C t + sn E C s) - two * ∑ f : Fin 4, sc E C t f * sc E C s f) 0) two)

/-- A row's whole push term and whole pull term. -/
def rowPush : EReal := ∑ t : Fin 30, ∑ s : Fin 30, push E C t s
def rowPull : EReal := ∑ t : Fin 30, pull E C t

end Row

/-- The result of both programs from the sixteen levels' totals: each level's push total over the number
    of its pairs and its pull total over the number of its embeddings, summed over the levels, the two added. -/
def total (P Q : Fin 16 → EReal) : EReal :=
  (∑ l : Fin 16, Ideal.div (P l) nPush) + (∑ l : Fin 16, Ideal.div (Q l) nPull)

/-! ## Regrouping rows into tiles -/

/-- Row `441·a + b` of tile `a`. -/
def rowOf (a : Fin 21) (b : Fin 441) : Fin 9261 := ⟨441 * a.val + b.val, by have := a.isLt; have := b.isLt; omega⟩

/-- A sum over all 9261 rows is the sum over the 21 tiles of the sums over each tile's 441 rows. -/
theorem sum_rows_eq_tiles {M : Type*} [AddCommMonoid M] (g : Fin 9261 → M) :
    ∑ N : Fin 9261, g N = ∑ a : Fin 21, ∑ b : Fin 441, g (rowOf a b) := by
  rw [← Fintype.sum_prod_type']
  refine (Fintype.sum_equiv (finProdFinEquiv (m := 21) (n := 441)) _ _ (fun p => ?_)).symm
  refine congrArg g (Fin.ext ?_)
  show 441 * p.1.val + p.2.val = _
  simp [finProdFinEquiv, Nat.add_comm]

end Cert.Spec

end
-- ==== Proof.KernelTile.lean ====
/-
  One grid point of the kernel reads a tile: 441 rows of one level, each row its thirty embeddings and its
  ten centroids. The body's two scalar results at that point are the tile's push total and pull total:
  the sums over the tile's rows of the row functions of Spec.lean.

  The body works on whole arrays: an array indexed by (row, embedding, centroid) or by (row, embedding,
  embedding), made from the two blocks by products, sums over one axis, unit axes put in and broadcast over.
  Read at one index, each of these is the operand at an index with the same coordinates (a unit axis read
  at 0), and a sum over one axis is the sum over that axis's coordinate. So each array of the body, read at
  (n, t, k) or (n, t, s), is a row function of Spec.lean at row n: the squared norms, the inner products, the
  squared distance, the unnormalised and the normalised soft assignment, the soft centroid. The two scalars
  are then the same three nested sums as the specification's: over the last axis, over the embeddings, over
  the tile's rows. The one difference in spelling is the sign: the body subtracts the squared distance from
  the zero word, and zero minus x is minus x on the extended reals.
-/
import proofs.«150267_j88673894793881_1_alg».proof.Proof.Gen.KernelIdeal.Skeleton
import proofs.«150267_j88673894793881_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-- Row `n` of a staged block of embeddings: embedding `t`, feature `f`. -/
def rowE (x0 : Vec Ideal S1x441x30x4 .f32) (n : Fin 441) : Fin 30 → Fin 4 → EReal :=
  fun t f => x0 (ix4 (0 : Fin 1) n t f)

/-- Row `n` of a staged block of centroids: centroid `k`, feature `f`. -/
def rowC (x1 : Vec Ideal S1x441x10x4 .f32) (n : Fin 441) : Fin 10 → Fin 4 → EReal :=
  fun k f => x1 (ix4 (0 : Fin 1) n k f)

/-! ## A sum over one axis, read at an index given by its coordinates

The accumulator of each sum is the zero word, the neutral element: the sum has no initial term. -/

/-- The sum over the last axis of a rank-3 array, at `(n, t)`. -/
theorem sum3_last {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = 0x00000000#32) (n : Fin a) (t : Fin b) :
    multiReduction .add [2] ⟨2, ![a, b]⟩ src 0x00000000#32 h hφ hacc (ix2 n t) = ∑ k : Fin c, src (ix3 n t k) :=
  (Ideal.multiReduction_add_single src 0x00000000#32 h hφ hacc (ix2 n t)).trans
    (Finset.sum_congr rfl fun k _ => congrArg src (funext fun d => Fin.ext (by
      match d with
      | ⟨0, _⟩ => rfl
      | ⟨1, _⟩ => rfl
      | ⟨2, _⟩ => rfl)))

/-- The sum over the last axis of a rank-4 array, at `(n, t, k)`. -/
theorem sum4_last {a b c d : ℕ} (src : FVec Ideal ⟨4, ![a, b, c, d]⟩ .f32)
    (h : Shape.Reduces ⟨4, ![a, b, c, d]⟩ [3] ⟨3, ![a, b, c]⟩) (hφ : FKind.Formats .f32)
    (hacc : (0x00000000#32 : BitVec 32) = 0x00000000#32) (n : Fin a) (t : Fin b) (k : Fin c) :
    multiReduction .add [3] ⟨3, ![a, b, c]⟩ src 0x00000000#32 h hφ hacc (ix3 n t k) = ∑ f : Fin d, src (ix4 n t k f) :=
  (Ideal.multiReduction_add_single src 0x00000000#32 h hφ hacc (ix3 n t k)).trans
    (Finset.sum_congr rfl fun f _ => congrArg src (funext fun e => Fin.ext (by
      match e with
      | ⟨0, _⟩ => rfl
      | ⟨1, _⟩ => rfl
      | ⟨2, _⟩ => rfl
      | ⟨3, _⟩ => rfl)))

/-- The sum over the third axis of a rank-4 array, at `(n, t, f)`. -/
theorem sum4_third {a b c d : ℕ} (src : FVec Ideal ⟨4, ![a, b, c, d]⟩ .f32)
    (h : Shape.Reduces ⟨4, ![a, b, c, d]⟩ [2] ⟨3, ![a, b, d]⟩) (hφ : FKind.Formats .f32)
    (hacc : (0x00000000#32 : BitVec 32) = 0x00000000#32) (n : Fin a) (t : Fin b) (f : Fin d) :
    multiReduction .add [2] ⟨3, ![a, b, d]⟩ src 0x00000000#32 h hφ hacc (ix3 n t f) = ∑ k : Fin c, src (ix4 n t k f) :=
  (Ideal.multiReduction_add_single src 0x00000000#32 h hφ hacc (ix3 n t f)).trans
    (Finset.sum_congr rfl fun k _ => congrArg src (funext fun e => Fin.ext (by
      match e with
      | ⟨0, _⟩ => rfl
      | ⟨1, _⟩ => rfl
      | ⟨2, _⟩ => rfl
      | ⟨3, _⟩ => rfl)))

/-- The sum over the last axis of a matrix, at `n`. -/
theorem sum2_last {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (n : Fin a) :
    multiReduction .add [1] ⟨1, ![a]⟩ src 0x00000000#32 h hφ hacc (ix1 n) = ∑ t : Fin b, src (ix2 n t) :=
  (Ideal.multiReduction_add_single src 0x00000000#32 h hφ hacc (ix1 n)).trans
    (Finset.sum_congr rfl fun t _ => congrArg src (funext fun e => Fin.ext (by
      match e with
      | ⟨0, _⟩ => rfl
      | ⟨1, _⟩ => rfl)))

/-! ## Unit axes put in by a shape cast, and broadcast over

A shape cast keeps the row-major position, and a unit axis contributes nothing to it; a broadcast reads a unit
axis at `0` and every other axis at the result's coordinate. -/

section Layout

variable {α : Type}

/-- `[a, b]` cast to `[a, b, 1]` reads, at `(n, t, u)`, the operand at `(n, t)`. -/
theorem cast_ab_ab1 {a b : ℕ} (x : (⟨2, ![a, b]⟩ : Shape).Idx → α)
    (h : (⟨2, ![a, b]⟩ : Shape).ShapeCasts ⟨3, ![a, b, 1]⟩) (n : Fin a) (t : Fin b) (u : Fin 1) :
    shapeCast ⟨3, ![a, b, 1]⟩ x h (ix3 n t u) = x (ix2 n t) :=
  shapeCast_apply x h _ _ (by
    have hu : u.val = 0 := by omega
    rw [Shape.rowMajor_val_three, Shape.rowMajor_val_two]
    show n.val * b + t.val = (n.val * b + t.val) * 1 + u.val
    rw [hu, Nat.mul_one, Nat.add_zero])

/-- `[a, b]` cast to `[a, 1, b]` reads, at `(n, u, k)`, the operand at `(n, k)`. -/
theorem cast_ab_a1b {a b : ℕ} (x : (⟨2, ![a, b]⟩ : Shape).Idx → α)
    (h : (⟨2, ![a, b]⟩ : Shape).ShapeCasts ⟨3, ![a, 1, b]⟩) (n : Fin a) (u : Fin 1) (k : Fin b) :
    shapeCast ⟨3, ![a, 1, b]⟩ x h (ix3 n u k) = x (ix2 n k) :=
  shapeCast_apply x h _ _ (by
    have hu : u.val = 0 := by omega
    rw [Shape.rowMajor_val_three, Shape.rowMajor_val_two]
    show n.val * b + k.val = (n.val * 1 + u.val) * b + k.val
    rw [hu, Nat.mul_one, Nat.add_zero])

/-- `[a, b, c]` cast to `[a, b, 1, c]` reads, at `(n, t, u, f)`, the operand at `(n, t, f)`. -/
theorem cast_abc_ab1c {a b c : ℕ} (x : (⟨3, ![a, b, c]⟩ : Shape).Idx → α)
    (h : (⟨3, ![a, b, c]⟩ : Shape).ShapeCasts ⟨4, ![a, b, 1, c]⟩) (n : Fin a) (t : Fin b) (u : Fin 1) (f : Fin c) :
    shapeCast ⟨4, ![a, b, 1, c]⟩ x h (ix4 n t u f) = x (ix3 n t f) :=
  shapeCast_apply x h _ _ (by
    have hu : u.val = 0 := by omega
    rw [Shape.rowMajor_val_four, Shape.rowMajor_val_three]
    show (n.val * b + t.val) * c + f.val = ((n.val * b + t.val) * 1 + u.val) * c + f.val
    rw [hu, Nat.mul_one, Nat.add_zero])

/-- `[a, b, c]` cast to `[a, 1, b, c]` reads, at `(n, u, k, f)`, the operand at `(n, k, f)`. -/
theorem cast_abc_a1bc {a b c : ℕ} (x : (⟨3, ![a, b, c]⟩ : Shape).Idx → α)
    (h : (⟨3, ![a, b, c]⟩ : Shape).ShapeCasts ⟨4, ![a, 1, b, c]⟩) (n : Fin a) (u : Fin 1) (k : Fin b) (f : Fin c) :
    shapeCast ⟨4, ![a, 1, b, c]⟩ x h (ix4 n u k f) = x (ix3 n k f) :=
  shapeCast_apply x h _ _ (by
    have hu : u.val = 0 := by omega
    rw [Shape.rowMajor_val_four, Shape.rowMajor_val_three]
    show (n.val * b + k.val) * c + f.val = ((n.val * 1 + u.val) * b + k.val) * c + f.val
    rw [hu, Nat.mul_one, Nat.add_zero])

/-- `[a, b, c]` cast to `[a, b, c, 1]` reads, at `(n, t, k, u)`, the operand at `(n, t, k)`. -/
theorem cast_abc_abc1 {a b c : ℕ} (x : (⟨3, ![a, b, c]⟩ : Shape).Idx → α)
    (h : (⟨3, ![a, b, c]⟩ : Shape).ShapeCasts ⟨4, ![a, b, c, 1]⟩) (n : Fin a) (t : Fin b) (k : Fin c) (u : Fin 1) :
    shapeCast ⟨4, ![a, b, c, 1]⟩ x h (ix4 n t k u) = x (ix3 n t k) :=
  shapeCast_apply x h _ _ (by
    have hu : u.val = 0 := by omega
    rw [Shape.rowMajor_val_four, Shape.rowMajor_val_three]
    show (n.val * b + t.val) * c + k.val = ((n.val * b + t.val) * c + k.val) * 1 + u.val
    rw [hu, Nat.mul_one, Nat.add_zero])

/-- A coordinate of an axis of extent `m` is what a broadcast reads there: `0` when `m` is `1`. -/
theorem coord_bcast {m : ℕ} (i : Fin m) : i.val = if m = 1 then 0 else i.val := by
  split
  · have := i.isLt; omega
  · rfl

/-- `[a, b, 1, c]` broadcast to `[a, b, d, c]` reads, at `(n, t, k, f)`, the operand at `(n, t, 0, f)`. -/
theorem bcast_ab1c {a b c d : ℕ} (x : (⟨4, ![a, b, 1, c]⟩ : Shape).Idx → α)
    (h : (⟨4, ![a, b, 1, c]⟩ : Shape).Broadcasts ⟨4, ![a, b, d, c]⟩) (n : Fin a) (t : Fin b) (k : Fin d) (f : Fin c) :
    broadcastTo ⟨4, ![a, b, d, c]⟩ x h (ix4 n t k f) = x (ix4 n t (0 : Fin 1) f) :=
  broadcastTo_apply x h (ix4 n t k f) (ix4 n t (0 : Fin 1) f) fun ax => by
    match ax with
    | ⟨0, _⟩ => exact coord_bcast n
    | ⟨1, _⟩ => exact coord_bcast t
    | ⟨2, _⟩ => rfl
    | ⟨3, _⟩ => exact coord_bcast f

/-- `[a, 1, b, c]` broadcast to `[a, d, b, c]` reads, at `(n, t, k, f)`, the operand at `(n, 0, k, f)`. -/
theorem bcast_a1bc {a b c d : ℕ} (x : (⟨4, ![a, 1, b, c]⟩ : Shape).Idx → α)
    (h : (⟨4, ![a, 1, b, c]⟩ : Shape).Broadcasts ⟨4, ![a, d, b, c]⟩) (n : Fin a) (t : Fin d) (k : Fin b) (f : Fin c) :
    broadcastTo ⟨4, ![a, d, b, c]⟩ x h (ix4 n t k f) = x (ix4 n (0 : Fin 1) k f) :=
  broadcastTo_apply x h (ix4 n t k f) (ix4 n (0 : Fin 1) k f) fun ax => by
    match ax with
    | ⟨0, _⟩ => exact coord_bcast n
    | ⟨1, _⟩ => rfl
    | ⟨2, _⟩ => exact coord_bcast k
    | ⟨3, _⟩ => exact coord_bcast f

/-- `[a, b, c, 1]` broadcast to `[a, b, c, d]` reads, at `(n, t, k, f)`, the operand at `(n, t, k, 0)`. -/
theorem bcast_abc1 {a b c d : ℕ} (x : (⟨4, ![a, b, c, 1]⟩ : Shape).Idx → α)
    (h : (⟨4, ![a, b, c, 1]⟩ : Shape).Broadcasts ⟨4, ![a, b, c, d]⟩) (n : Fin a) (t : Fin b) (k : Fin c) (f : Fin d) :
    broadcastTo ⟨4, ![a, b, c, d]⟩ x h (ix4 n t k f) = x (ix4 n t k (0 : Fin 1)) :=
  broadcastTo_apply x h (ix4 n t k f) (ix4 n t k (0 : Fin 1)) fun ax => by
    match ax with
    | ⟨0, _⟩ => exact coord_bcast n
    | ⟨1, _⟩ => exact coord_bcast t
    | ⟨2, _⟩ => exact coord_bcast k
    | ⟨3, _⟩ => rfl

/-- `[a, b, 1]` broadcast to `[a, b, d]` reads, at `(n, t, k)`, the operand at `(n, t, 0)`. -/
theorem bcast_ab1 {a b d : ℕ} (x : (⟨3, ![a, b, 1]⟩ : Shape).Idx → α)
    (h : (⟨3, ![a, b, 1]⟩ : Shape).Broadcasts ⟨3, ![a, b, d]⟩) (n : Fin a) (t : Fin b) (k : Fin d) :
    broadcastTo ⟨3, ![a, b, d]⟩ x h (ix3 n t k) = x (ix3 n t (0 : Fin 1)) :=
  broadcastTo_apply x h (ix3 n t k) (ix3 n t (0 : Fin 1)) fun ax => by
    match ax with
    | ⟨0, _⟩ => exact coord_bcast n
    | ⟨1, _⟩ => exact coord_bcast t
    | ⟨2, _⟩ => rfl

/-- `[a, 1, b]` broadcast to `[a, d, b]` reads, at `(n, t, k)`, the operand at `(n, 0, k)`. -/
theorem bcast_a1b {a b d : ℕ} (x : (⟨3, ![a, 1, b]⟩ : Shape).Idx → α)
    (h : (⟨3, ![a, 1, b]⟩ : Shape).Broadcasts ⟨3, ![a, d, b]⟩) (n : Fin a) (t : Fin d) (k : Fin b) :
    broadcastTo ⟨3, ![a, d, b]⟩ x h (ix3 n t k) = x (ix3 n (0 : Fin 1) k) :=
  broadcastTo_apply x h (ix3 n t k) (ix3 n (0 : Fin 1) k) fun ax => by
    match ax with
    | ⟨0, _⟩ => exact coord_bcast n
    | ⟨1, _⟩ => rfl
    | ⟨2, _⟩ => exact coord_bcast k

/-- The element a `[1, 1]` array is read at when its position `[0, 0]` is extracted. -/
theorem extract00 (x : (⟨2, ![1, 1]⟩ : Shape).Idx → α)
    (h : ∀ a, (![0, 0] : Fin 2 → Nat) a < (⟨2, ![1, 1]⟩ : Shape).size a) :
    extractAt ![0, 0] x h = x (ix2 (0 : Fin 1) (0 : Fin 1)) :=
  congrArg x (funext fun a => Fin.ext (by
    match a with
    | ⟨0, _⟩ => rfl
    | ⟨1, _⟩ => rfl))

end Layout

/-- An exponential at an index is the exponential of the element. -/
theorem exp_apply {s : Shape} (x : FVec Ideal s .f32) (i : s.Idx) : exp x i = Ideal.exp (x i) := rfl

/-! ## The reshaped inputs -/

/-- The embeddings block without its unit axis, at `(n, t, f)`: row `n`'s embedding `t`, feature `f`. -/
theorem emb_apply (x0 : Vec Ideal S1x441x30x4 .f32) (n : Fin 441) (t : Fin 30) (f : Fin 4) :
    k0_pay5 x0 (ix3 n t f) = rowE x0 n t f :=
  shapeCast_1abc_abc_apply x0 _ n t f

/-- The centroids block without its unit axis, at `(n, k, f)`: row `n`'s centroid `k`, feature `f`. -/
theorem cent_apply (x1 : Vec Ideal S1x441x10x4 .f32) (n : Fin 441) (k : Fin 10) (f : Fin 4) :
    k0_pay6 x1 (ix3 n k f) = rowC x1 n k f :=
  shapeCast_1abc_abc_apply x1 _ n k f

/-- The centroids with a unit axis in the embeddings' place, at `(n, u, k, f)`. -/
theorem cent1_apply (x1 : Vec Ideal S1x441x10x4 .f32) (n : Fin 441) (u : Fin 1) (k : Fin 10) (f : Fin 4) :
    k0_pay7 x1 (ix4 n u k f) = rowC x1 n k f :=
  (cast_abc_a1bc (k0_pay6 x1) _ n u k f).trans (cent_apply x1 n k f)

/-! ## The soft assignment, stage by stage

The arrays the body computes on the way to the soft assignment, named, each read at an index as the row
function of the specification at that row. -/

/-- `|E t|²` for every row and embedding. -/
def emb2 (x0 : Vec Ideal S1x441x30x4 .f32) : FVec Ideal S441x30 .f32 :=
  multiReduction .add [2] S441x30 (mulf (k0_pay5 x0) (k0_pay5 x0)) 0x00000000#32 reduces_S441x30x4_S441x30 (.inl rfl) rfl

/-- `|C k|²` for every row and centroid. -/
def cents2 (x1 : Vec Ideal S1x441x10x4 .f32) : FVec Ideal S441x10 .f32 :=
  multiReduction .add [2] S441x10 (mulf (k0_pay6 x1) (k0_pay6 x1)) 0x00000000#32 reduces_S441x10x4_S441x10 (.inl rfl) rfl

/-- `⟨E t, C k⟩` for every row, embedding and centroid. -/
def cross (x0 : Vec Ideal S1x441x30x4 .f32) (x1 : Vec Ideal S1x441x10x4 .f32) : FVec Ideal S441x30x10 .f32 :=
  multiReduction .add [3] S441x30x10
    (mulf
      (broadcastTo S441x30x10x4 (shapeCast S441x30x1x4 (k0_pay5 x0) shapeCasts_S441x30x4_S441x30x1x4) broadcasts_S441x30x1x4_S441x30x10x4)
      (broadcastTo S441x30x10x4 (shapeCast S441x1x10x4 (k0_pay6 x1) shapeCasts_S441x10x4_S441x1x10x4) broadcasts_S441x1x10x4_S441x30x10x4))
    0x00000000#32 reduces_S441x30x10x4_S441x30x10 (.inl rfl) rfl

/-- The squared distances, by the expanded formula. -/
def d2 (x0 : Vec Ideal S1x441x30x4 .f32) (x1 : Vec Ideal S1x441x10x4 .f32) : FVec Ideal S441x30x10 .f32 :=
  subf
    (addf
      (broadcastTo S441x30x10 (shapeCast S441x30x1 (emb2 x0) shapeCasts_S441x30_S441x30x1) broadcasts_S441x30x1_S441x30x10)
      (broadcastTo S441x30x10 (shapeCast S441x1x10 (cents2 x1) shapeCasts_S441x10_S441x1x10) broadcasts_S441x1x10_S441x30x10))
    (mulf (broadcast S441x30x10 (Scalar.ofBits (F := Ideal) .f32 0x40000000#32)) (cross x0 x1))

/-- The unnormalised soft assignments. -/
def wts (x0 : Vec Ideal S1x441x30x4 .f32) (x1 : Vec Ideal S1x441x10x4 .f32) : FVec Ideal S441x30x10 .f32 :=
  exp (divf (subf (broadcast S441x30x10 (Scalar.ofBits (F := Ideal) .f32 0x00000000#32)) (d2 x0 x1))
    (broadcast S441x30x10 (Scalar.ofBits (F := Ideal) .f32 0x32ABCC77#32)))

/-- Their sums over the centroids. -/
def wsum (x0 : Vec Ideal S1x441x30x4 .f32) (x1 : Vec Ideal S1x441x10x4 .f32) : FVec Ideal S441x30 .f32 :=
  multiReduction .add [2] S441x30 (wts x0 x1) 0x00000000#32 reduces_S441x30x10_S441x30 (.inl rfl) rfl

/-- The body's soft-assignment array is the quotient of those two, broadcast over the features. -/
theorem pay8_eq (x0 : Vec Ideal S1x441x30x4 .f32) (x1 : Vec Ideal S1x441x10x4 .f32) :
    k0_pay8 x0 x1 =
      broadcastTo S441x30x10x4
        (shapeCast S441x30x10x1
          (divf (wts x0 x1)
            (broadcastTo S441x30x10
              (addf (shapeCast S441x30x1 (wsum x0 x1) shapeCasts_S441x30_S441x30x1)
                (broadcast S441x30x1 (Scalar.ofBits (F := Ideal) .f32 0x2EDBE6FF#32)))
              broadcasts_S441x30x1_S441x30x10))
          shapeCasts_S441x30x10_S441x30x10x1)
        broadcasts_S441x30x10x1_S441x30x10x4 := rfl

/-- At `(n, t)`: the squared norm of row `n`'s embedding `t`. -/
theorem emb2_apply (x0 : Vec Ideal S1x441x30x4 .f32) (n : Fin 441) (t : Fin 30) :
    emb2 x0 (ix2 n t) = ∑ f : Fin 4, rowE x0 n t f * rowE x0 n t f :=
  (sum3_last _ _ _ _ n t).trans (by simp only [mulf_apply, emb_apply])

/-- At `(n, k)`: the squared norm of row `n`'s centroid `k`. -/
theorem cents2_apply (x1 : Vec Ideal S1x441x10x4 .f32) (n : Fin 441) (k : Fin 10) :
    cents2 x1 (ix2 n k) = ∑ f : Fin 4, rowC x1 n k f * rowC x1 n k f :=
  (sum3_last _ _ _ _ n k).trans (by simp only [mulf_apply, cent_apply])

/-- At `(n, t, k)`: the inner product of row `n`'s embedding `t` and centroid `k`. -/
theorem cross_apply (x0 : Vec Ideal S1x441x30x4 .f32) (x1 : Vec Ideal S1x441x10x4 .f32)
    (n : Fin 441) (t : Fin 30) (k : Fin 10) :
    cross x0 x1 (ix3 n t k) = ∑ f : Fin 4, rowE x0 n t f * rowC x1 n k f :=
  (sum4_last _ _ _ _ n t k).trans
    (by simp only [mulf_apply, bcast_ab1c, bcast_a1bc, cast_abc_ab1c, cast_abc_a1bc, emb_apply, cent_apply])

/-- At `(n, t, k)`: the squared distance of the specification. -/
theorem d2_apply (x0 : Vec Ideal S1x441x30x4 .f32) (x1 : Vec Ideal S1x441x10x4 .f32)
    (n : Fin 441) (t : Fin 30) (k : Fin 10) :
    d2 x0 x1 (ix3 n t k) = Spec.dist (rowE x0 n) (rowC x1 n) t k := by
  unfold d2
  simp only [subf_apply, addf_apply, mulf_apply, broadcast_apply, bcast_ab1, bcast_a1b, cast_ab_ab1, cast_ab_a1b,
    emb2_apply, cents2_apply, cross_apply, Ideal.ofBits_def]
  rfl

/-- At `(n, t, k)`: the unnormalised soft assignment. The body negates the squared distance by subtracting it from
    the zero word; the zero word is `0`, and `0 - x = -x`. -/
theorem wts_apply (x0 : Vec Ideal S1x441x30x4 .f32) (x1 : Vec Ideal S1x441x10x4 .f32)
    (n : Fin 441) (t : Fin 30) (k : Fin 10) :
    wts x0 x1 (ix3 n t k) = Spec.wt (rowE x0 n) (rowC x1 n) t k := by
  unfold wts
  simp only [exp_apply, divf_apply, subf_apply, broadcast_apply, d2_apply, Ideal.ofBits_def, Ideal.ofBits_zero_f32, zero_sub]
  rfl

/-- At `(n, t)`: the normalising sum of embedding `t`. -/
theorem wsum_apply (x0 : Vec Ideal S1x441x30x4 .f32) (x1 : Vec Ideal S1x441x10x4 .f32) (n : Fin 441) (t : Fin 30) :
    wsum x0 x1 (ix2 n t) = ∑ k : Fin 10, Spec.wt (rowE x0 n) (rowC x1 n) t k :=
  (sum3_last _ _ _ _ n t).trans (by simp only [wts_apply])

/-- The body's soft-assignment array at `(n, t, k, f)`: the soft assignment of row `n`'s embedding `t` to centroid `k`,
    whatever the feature `f`. -/
theorem sa_apply (x0 : Vec Ideal S1x441x30x4 .f32) (x1 : Vec Ideal S1x441x10x4 .f32)
    (n : Fin 441) (t : Fin 30) (k : Fin 10) (f : Fin 4) :
    k0_pay8 x0 x1 (ix4 n t k f) = Spec.sa (rowE x0 n) (rowC x1 n) t k := by
  rw [pay8_eq]
  simp only [bcast_abc1, cast_abc_abc1, divf_apply, bcast_ab1, addf_apply, cast_ab_ab1, broadcast_apply,
    wts_apply, wsum_apply, Ideal.ofBits_def]
  rfl

/-! ## The soft centroid -/

/-- The body's soft-centroid array at `(n, t, f)`: the soft centroid of row `n`'s embedding `t`, feature `f`. -/
theorem sc_apply (x0 : Vec Ideal S1x441x30x4 .f32) (x1 : Vec Ideal S1x441x10x4 .f32)
    (n : Fin 441) (t : Fin 30) (f : Fin 4) :
    k0_pay9 (k0_pay7 x1) (k0_pay8 x0 x1) (ix3 n t f) = Spec.sc (rowE x0 n) (rowC x1 n) t f := by
  unfold k0_pay9
  refine (sum4_third _ _ _ _ n t f).trans ?_
  simp only [mulf_apply, bcast_a1bc, cent1_apply, sa_apply]
  rfl

/-! ## The tile's two totals

Both scalars leave the body the same way: the last array is summed over its last axis, then over the embeddings,
and the 441 row totals are summed as the one row of a `[1, 441]` array, whose one element is the result. -/

/-- The total of a `[441]` array of row totals, as the body takes it. -/
theorem total_rows (v : FVec Ideal S441 .f32) :
    extractAt ![0, 0]
        (shapeCast S1x1
          (multiReduction .add [1] S1 (shapeCast S1x441 v shapeCasts_S441_S1x441) 0x00000000#32 reduces_S1x441_S1 (.inl rfl) rfl)
          shapeCasts_S1_S1x1)
        inpos_S1x1_p0_0
      = ∑ n : Fin 441, v (ix1 n) := by
  refine (extract00 _ _).trans ?_
  refine (shapeCast_a_1a_apply _ _ (0 : Fin 1) (0 : Fin 1)).trans ?_
  refine (sum2_last _ _ _ _ (0 : Fin 1)).trans ?_
  exact Finset.sum_congr rfl fun n _ => shapeCast_a_1a_apply _ _ (0 : Fin 1) n

/-- The body's push scalar at a point is the sum over the tile's rows of each row's push total. -/
theorem pushTile_eq (x0 : Vec Ideal S1x441x30x4 .f32) (x1 : Vec Ideal S1x441x10x4 .f32) :
    k0_pay11 (F := Ideal) (k0_pay7 x1) (k0_pay8 x0 x1) = ∑ n : Fin 441, Spec.rowPush (rowE x0 n) (rowC x1 n) := by
  unfold k0_pay11
  -- the three nested sums: over the tile's rows, over the first embedding, over the second
  refine (total_rows _).trans (Finset.sum_congr rfl fun n _ => ?_)
  refine (sum2_last _ _ _ _ n).trans (Finset.sum_congr rfl fun t _ => ?_)
  refine (sum3_last _ _ _ _ n t).trans (Finset.sum_congr rfl fun s _ => ?_)
  -- the pair's term at (n, t, s): the two squared norms and the inner product of the soft centroids
  simp only [divf_apply, addf_apply, subf_apply, mulf_apply, maximumf_apply, broadcast_apply, bcast_ab1, bcast_a1b,
    cast_ab_ab1, cast_ab_a1b, Ideal.ofBits_def]
  rw [sum3_last, sum3_last, sum4_last]
  simp only [mulf_apply, bcast_ab1c, bcast_a1bc, cast_abc_ab1c, cast_abc_a1bc, sc_apply, Ideal.ofBits_zero_f32]
  rfl

/-- The body's pull scalar at a point is the sum over the tile's rows of each row's pull total. -/
theorem pullTile_eq (x0 : Vec Ideal S1x441x30x4 .f32) (x1 : Vec Ideal S1x441x10x4 .f32) :
    k0_pay10 (F := Ideal) (k0_pay5 x0) (k0_pay7 x1) (k0_pay8 x0 x1) = ∑ n : Fin 441, Spec.rowPull (rowE x0 n) (rowC x1 n) := by
  unfold k0_pay10
  -- the three nested sums: over the tile's rows, over the embeddings, over the features
  refine (total_rows _).trans (Finset.sum_congr rfl fun n _ => ?_)
  refine (sum2_last _ _ _ _ n).trans (Finset.sum_congr rfl fun t _ => ?_)
  refine (sum3_last _ _ _ _ n t).trans (Finset.sum_congr rfl fun f _ => ?_)
  simp only [mulf_apply, subf_apply, emb_apply, sc_apply]

end Cert.KernelIdeal.Tile

end
-- ==== Proof.KernelAcc.lean ====
/-
  What one grid point leaves in the two result blocks, and what a level's 21 points leave together.

  A level l is the run of points 21·l … 21·l + 20 (one per tile of 441 rows). Each result window's block
  (1 × 1 × 128 lanes) stays in its staging buffer for the whole run and is written back after the last point.
  At the run's first point the body stores zeros, reads them back and adds the tile's scalar on lane 0; at every
  later point it adds that point's scalar on lane 0 to what the point before left. So after the run's j-th point
  lane 0 holds 0 plus the sum of the scalars of the run's points so far, and every other lane what adding zeros leaves.
-/
import proofs.«150267_j88673894793881_1_alg».proof.Proof.Gen.KernelIdeal.Frame
import proofs.«150267_j88673894793881_1_alg».proof.Proof.KernelTile
import proofs.«150267_j88673894793881_1_alg».proof.Proof.Spec
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen

/-! ## What each case of the body leaves in the two result blocks -/

section Cases

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The tile's push scalar, from the two staged input blocks. -/
abbrev pushOf (x0 : Vec F S1x441x30x4 .f32) (x1 : Vec F S1x441x10x4 .f32) : F .f32 :=
  k0_pay11 (k0_pay7 x1) (k0_pay8 x0 x1)

/-- The tile's pull scalar, from the two staged input blocks. -/
abbrev pullOf (x0 : Vec F S1x441x30x4 .f32) (x1 : Vec F S1x441x10x4 .f32) : F .f32 :=
  k0_pay10 (k0_pay5 x0) (k0_pay7 x1) (k0_pay8 x0 x1)

/-- A later point of a level leaves, in the push block holding `xo2`, `xo2` with the tile's push scalar added on lane 0. -/
theorem out_B_2 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x441x30x4 .f32) (x1 : Vec F S1x441x10x4 .f32) (xo2 xo3 : Vec F S1x1x128 .f32) :
    out0_B_2 c i a2 h2 a3 h3 a4 h4 a5 h5 hc x0 x1 xo2 xo3 = k0_pay1 (pushOf x0 x1) (k0_pay12 xo2) := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x441x30x4) hz4, View.ld_unit_zero (S := S1x441x10x4) hz4, View.ld_unit_zero (S := S1x1x128) hz3,
    View.readCov_unit_zero (S := S1x1x128) _ hz3]

/-- A later point of a level leaves, in the pull block holding `xo3`, `xo3` with the tile's pull scalar added on lane 0. -/
theorem out_B_3 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S1x441x30x4 .f32) (x1 : Vec F S1x441x10x4 .f32) (xo2 xo3 : Vec F S1x1x128 .f32) :
    out0_B_3 c i a2 h2 a3 h3 a4 h4 a5 h5 hc x0 x1 xo2 xo3 = k0_pay2 (pullOf x0 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x441x30x4) hz4, View.ld_unit_zero (S := S1x441x10x4) hz4, View.ld_unit_zero (S := S1x1x128) hz3,
    View.readCov_unit_zero (S := S1x1x128) _ hz3]

/-- The first point of a level stores zeros in the push block, reads them back and adds the tile's push scalar on lane 0. -/
theorem out_A_2 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x441x30x4 .f32) (x1 : Vec F S1x441x10x4 .f32) :
    out0_A_2 c i a2 h2 a3 h3 a4 h4 a5 h5 hc x0 x1 = k0_pay1 (pushOf x0 x1) (k0_pay12 (k0_pay3 (F := F))) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x128) hz3]
  simp only [View.readAt_eq_ld, h2.read_unread, h3.read_unread, h4.read_unread, h5.read_unread,
    View.ld_unit_zero (S := S1x441x30x4) hz4, View.ld_unit_zero (S := S1x441x10x4) hz4, View.ld_unit_zero (S := S1x1x128) hz3,
    View.readCov_unit_zero (S := S1x1x128) _ hz3]

/-- The first point of a level stores zeros in the pull block, reads them back and adds the tile's pull scalar on lane 0. -/
theorem out_A_3 (c : Dev nD) (i : grid0.Coords) (a2 : Memref sig .tc .vmem S1x441x30x4 .f32) (h2 : a2.IsWhole)
    (a3 : Memref sig .tc .vmem S1x441x10x4 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S1x441x30x4 .f32) (x1 : Vec F S1x441x10x4 .f32) :
    out0_A_3 c i a2 h2 a3 h3 a4 h4 a5 h5 hc x0 x1 = k0_pay2 (pullOf x0 x1) (k0_pay4 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3]
  simp only [View.readAt_eq_ld, h2.read_unread, h3.read_unread, h4.read_unread, h5.read_unread,
    View.ld_unit_zero (S := S1x441x30x4) hz4, View.ld_unit_zero (S := S1x441x10x4) hz4, View.ld_unit_zero (S := S1x1x128) hz3,
    View.readCov_unit_zero (S := S1x1x128) _ hz3]

end Cases

/-! ## Lane 0 of the stored values -/

section Lanes

/-- Lane 0 of a result block. -/
abbrev lane0 : S1x1x128.Idx := ix3 (0 : Fin 1) (0 : Fin 1) (0 : Fin 128)

/-- On lane 0 the lane mask (lane index = 0) is set. -/
theorem mask_lane0 :
    cmpi CmpIPredicate.eq (iota Kind.tc S1x128 32 [1] iota_S1x128_d1_w32) (broadcast S1x128 0#32) (ix2 (0 : Fin 1) (0 : Fin 128)) = 1#1 := by
  show IntOp.cmpi CmpIPredicate.eq (iota Kind.tc S1x128 32 [1] iota_S1x128_d1_w32 (ix2 (0 : Fin 1) (0 : Fin 128))) 0#32 = 1#1
  rw [iota_single_apply]
  rfl

theorem succ_lane0 : (fun a : Fin 2 => lane0 a.succ) = ix2 (0 : Fin 1) (0 : Fin 128) := by
  funext a; match a with | ⟨0, _⟩ => rfl | ⟨1, _⟩ => rfl

/-- A block viewed without its leading unit axis has the same lane 0. -/
theorem pay12_lane0 (xo : Vec Ideal S1x1x128 .f32) :
    k0_pay12 (F := Ideal) xo (ix2 (0 : Fin 1) (0 : Fin 128)) = xo lane0 := by
  unfold k0_pay12
  refine (shapeCast_dropUnit_apply _ xo _ _).trans ?_
  refine congrArg xo ?_
  funext a; match a with | ⟨0, _⟩ => rfl | ⟨1, _⟩ => rfl | ⟨2, _⟩ => rfl

/-- The push store's value on lane 0: the block's lane 0 plus the scalar. -/
theorem pay1_lane0 (v : EReal) (w : FVec Ideal S1x128 .f32) :
    k0_pay1 (F := Ideal) v w lane0 = w (ix2 (0 : Fin 1) (0 : Fin 128)) + v := by
  unfold k0_pay1
  refine (shapeCast_addUnit_apply _ _ _ _).trans ?_
  rw [succ_lane0]
  simp only [addf_apply, select_apply, broadcast_apply]
  rw [mask_lane0]
  rfl

/-- The pull store's value on lane 0: the block's lane 0 plus the scalar. -/
theorem pay2_lane0 (v : EReal) (xo : Vec Ideal S1x1x128 .f32) :
    k0_pay2 (F := Ideal) v xo lane0 = xo lane0 + v := by
  unfold k0_pay2
  refine (shapeCast_addUnit_apply _ _ _ _).trans ?_
  rw [succ_lane0]
  simp only [addf_apply, select_apply, broadcast_apply]
  rw [mask_lane0]
  refine congrArg (· + v) ?_
  refine (shapeCast_dropUnit_apply _ xo _ _).trans ?_
  refine congrArg xo ?_
  funext a; match a with | ⟨0, _⟩ => rfl | ⟨1, _⟩ => rfl | ⟨2, _⟩ => rfl

/-- The zero block's lane 0 is zero. -/
theorem pay3_lane0 : k0_pay3 (F := Ideal) lane0 = 0 := by
  unfold k0_pay3
  refine (shapeCast_addUnit_apply _ _ _ _).trans ?_
  show Ideal.ofBits .f32 0x00000000#32 = 0
  exact Ideal.ofBits_zero_f32

theorem pay4_lane0 : k0_pay4 (F := Ideal) lane0 = 0 := by
  unfold k0_pay4
  refine (shapeCast_addUnit_apply _ _ _ _).trans ?_
  show Ideal.ofBits .f32 0x00000000#32 = 0
  exact Ideal.ofBits_zero_f32

end Lanes

/-! ## A level's points, folded -/

section Fold

variable (m : (ℓ : Loc nD τ sig) → Buf (Elt Ideal) ℓ)

/-- The push scalar of grid point `n` (zero past the grid). -/
def pushAt (c : Dev nD) (n : Nat) : EReal :=
  if h : n < cfg0.N then pushOf (F := Ideal) (iblk m c 0 ⟨n, h⟩) (iblk m c 1 ⟨n, h⟩) else 0

/-- The pull scalar of grid point `n` (zero past the grid). -/
def pullAt (c : Dev nD) (n : Nat) : EReal :=
  if h : n < cfg0.N then pullOf (F := Ideal) (iblk m c 0 ⟨n, h⟩) (iblk m c 1 ⟨n, h⟩) else 0

/-- After the `j`-th point of level `l` lane 0 of the push block holds the sum of the push scalars of the level's
    points so far: by induction on `j`, the first point resetting, each later one adding to its predecessor. -/
theorem lane_push (c : Dev nD) (l : Nat) : ∀ (j : Nat) (_ : j < 21) (h : 21 * l + j < cfg0.N),
    ((outsAt0 m c (21 * l + j) h).1 : S1x1x128.Idx → EReal) lane0 = ∑ s ∈ Finset.range (j + 1), pushAt m c (21 * l + s)
  | 0, _, h => by
    have h0 : (⟨21 * l + 0, h⟩ : Fin cfg0.N).val % 21 = 0 := by dsimp only; omega
    rw [outsAt0_A m c ⟨21 * l + 0, h⟩ h0]
    dsimp only
    rw [out_A_2, pay1_lane0, pay12_lane0, pay3_lane0, zero_add, Finset.sum_range_one, pushAt, dif_pos h]
  | j + 1, hj, h => by
    have hB : ¬(⟨21 * l + (j + 1), h⟩ : Fin cfg0.N).val % 21 = 0 := by dsimp only; omega
    have ih := lane_push c l j (by omega) (by omega)
    have same : ∀ (u : Nat) (hu : u < cfg0.N), u = 21 * l + j →
        ((outsAt0 m c u hu).1 : S1x1x128.Idx → EReal) lane0 = ∑ s ∈ Finset.range (j + 1), pushAt m c (21 * l + s) :=
      fun u hu e => by subst e; exact ih
    rw [outsAt0_B m c ⟨21 * l + (j + 1), h⟩ hB]
    dsimp only
    rw [out_B_2, pay1_lane0, pay12_lane0, same _ _ (by omega), Finset.sum_range_succ _ (j + 1), pushAt, dif_pos h]

/-- The same for the pull block. -/
theorem lane_pull (c : Dev nD) (l : Nat) : ∀ (j : Nat) (_ : j < 21) (h : 21 * l + j < cfg0.N),
    ((outsAt0 m c (21 * l + j) h).2 : S1x1x128.Idx → EReal) lane0 = ∑ s ∈ Finset.range (j + 1), pullAt m c (21 * l + s)
  | 0, _, h => by
    have h0 : (⟨21 * l + 0, h⟩ : Fin cfg0.N).val % 21 = 0 := by dsimp only; omega
    rw [outsAt0_A m c ⟨21 * l + 0, h⟩ h0]
    dsimp only
    rw [out_A_3, pay2_lane0, pay4_lane0, zero_add, Finset.sum_range_one, pullAt, dif_pos h]
  | j + 1, hj, h => by
    have hB : ¬(⟨21 * l + (j + 1), h⟩ : Fin cfg0.N).val % 21 = 0 := by dsimp only; omega
    have ih := lane_pull c l j (by omega) (by omega)
    have same : ∀ (u : Nat) (hu : u < cfg0.N), u = 21 * l + j →
        ((outsAt0 m c u hu).2 : S1x1x128.Idx → EReal) lane0 = ∑ s ∈ Finset.range (j + 1), pullAt m c (21 * l + s) :=
      fun u hu e => by subst e; exact ih
    rw [outsAt0_B m c ⟨21 * l + (j + 1), h⟩ hB]
    dsimp only
    rw [out_B_3, pay2_lane0, same _ _ (by omega), Finset.sum_range_succ _ (j + 1), pullAt, dif_pos h]

end Fold

end Cert.KernelIdeal.Acc

end
-- ==== Proof.KernelTail.lean ====
/-
  After the kernel region the program reads lane 0 of each level's row of the two result arrays
  (16 levels × 1 × 128 lanes each), divides the push lanes by the number of pairs of a level and the pull
  lanes by the number of embeddings of a level, sums each over the sixteen levels and adds the two sums.
-/
import proofs.«150267_j88673894793881_1_alg».proof.Proof.Gen.KernelIdeal.Frame
import proofs.«150267_j88673894793881_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Tail

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The push result array after the run, as a function of its index (level, 0, lane). -/
abbrev pushArr (c : Dev nD) : S16x1x128.Idx → EReal := (dats m 0 c).arrAt 2 cfg0.N

/-- The pull result array after the run. -/
abbrev pullArr (c : Dev nD) : S16x1x128.Idx → EReal := (dats m 0 c).arrAt 3 cfg0.N

/-! ## The tail over two arbitrary arrays

The fifteen operations after the region are a function of the two result arrays alone. It is stated here over
two arbitrary arrays `A2 A3`, so that reading it at the one index of the scalar result needs nothing about how
the region produced them. -/

/-- One side of the tail, over an arbitrary result array `A` and divisor word `w`: lane 0 of each level's row,
    the sixteen of them divided by the extended real `w` denotes, and summed from the zero word. -/
def levelSum (w : BitVec 32) (A : S16x1x128.Idx → EReal) : S_.Idx → EReal :=
  Host.reduceAdd (F := Ideal) (φ := .f32)
    (Host.divf (F := Ideal) (φ := .f32)
      (fun i => shapeCast S16 (extractStridedSlice S16x1x1 ![0, 0, 0] A slices_S16x1x128_S16x1x1_0_0_0) shapeCasts_S16x1x1_S16 i)
      (broadcastInDim S16 ![] bcast_S_S16 (constant (F := Ideal) S_ .f32 w)))
    (constant (F := Ideal) S_ .f32 0x00000000#32) reducesTo_S16_S_d0 h_S_

/-- The whole tail: the push side over the number of pairs plus the pull side over the number of embeddings. -/
def tail (A2 A3 : S16x1x128.Idx → EReal) : S_.Idx → EReal :=
  addf (F := Ideal) (φ := .f32) (levelSum 0x4AFE5C68#32 A2) (levelSum 0x4887A8C0#32 A3)

/-- A rank-1 index is its one coordinate. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The slice [0:16, 0:1, 0:1] reshaped to [16], read at level `l`: lane 0 of row `l`. Row-major position `l` of
    [16] is position (l, 0, 0) of [16, 1, 1], and the slice's offsets are all zero. -/
theorem lane0_apply (A : S16x1x128.Idx → EReal) (l : Fin 16) :
    shapeCast S16 (extractStridedSlice S16x1x1 ![0, 0, 0] A slices_S16x1x128_S16x1x1_0_0_0) shapeCasts_S16x1x1_S16 (ix1 l)
      = A (ix3 l (0 : Fin 1) (0 : Fin 128)) := by
  refine (shapeCast_apply _ shapeCasts_S16x1x1_S16 (ix1 l) (ix3 l (0 : Fin 1) (0 : Fin 1)) ?_).trans ?_
  · refine (Shape.rowMajor_val_three (d := ![16, 1, 1]) (ix3 l (0 : Fin 1) (0 : Fin 1))).trans ?_
    refine Eq.trans ?_ (Shape.rowMajor_val_one (d := ![16]) (ix1 l)).symm
    show (l.val * 1 + 0) * 1 + 0 = l.val
    omega
  · refine extractStridedSlice_apply _ A slices_S16x1x128_S16x1x1_0_0_0 _ (ix3 l (0 : Fin 1) (0 : Fin 128)) ?_
    intro a
    match a with
    | ⟨0, _⟩ => exact (Nat.zero_add _).symm
    | ⟨1, _⟩ => rfl
    | ⟨2, _⟩ => rfl

/-- One side read at the scalar's index: the sum over the sixteen levels of lane 0 over the divisor. The sum starts
    from the zero word, which is the extended real 0; the divisor is a constant, the same at every level. -/
theorem levelSum_apply (w : BitVec 32) (A : S16x1x128.Idx → EReal) :
    levelSum w A ix0 = ∑ l : Fin 16, Ideal.div (A (ix3 l (0 : Fin 1) (0 : Fin 128))) (Ideal.ofBits .f32 w) := by
  unfold levelSum
  simp only [Host.reduceAdd, Ideal.hostReduceAdd_def]
  refine (Ideal.hostReduceAdd_total reducesTo_S16_S_d0 (fun b => b.elim0) _ _ ix0).trans ?_
  rw [constant_apply, Ideal.ofBits_zero_f32, zero_add]
  refine (sum_idx1 _).trans (Finset.sum_congr rfl fun l _ => ?_)
  show Ideal.div (shapeCast S16 (extractStridedSlice S16x1x1 ![0, 0, 0] A slices_S16x1x128_S16x1x1_0_0_0) shapeCasts_S16x1x1_S16 (ix1 l))
      (broadcastInDim S16 ![] bcast_S_S16 (constant (F := Ideal) S_ .f32 w) (ix1 l)) = _
  rw [lane0_apply]
  rfl

/-- The tail read at the scalar's index is `Spec.total` of the two arrays' lane 0. -/
theorem tail_apply (A2 A3 : S16x1x128.Idx → EReal) :
    tail A2 A3 ix0 = Spec.total (fun l => A2 (ix3 l (0 : Fin 1) (0 : Fin 128))) (fun l => A3 (ix3 l (0 : Fin 1) (0 : Fin 128))) := by
  unfold tail Spec.total
  rw [addf_apply, levelSum_apply, levelSum_apply]

/-! ## The program's tail is that function of the region's two result arrays

The tail's operations run on the valuation that holds each result array as the region left it; the two arrays the
tail reads are the pipeline's arrays 2 and 3. -/

/-- The program's result: `Spec.total` of lane 0 of each level's row of the two result arrays. -/
theorem afterTail_main_v27 (c : Dev nD) :
    (Pipeline.afterTail₀ cfgs (dats m) 0 (V0 m) [hostOps1] c main_v27 : S_.Idx → EReal) ix0
      = Spec.total (fun l => pushArr m c (ix3 l (0 : Fin 1) (0 : Fin 128))) (fun l => pullArr m c (ix3 l (0 : Fin 1) (0 : Fin 128))) := by
  refine Eq.trans (congrFun ?_ ix0) (tail_apply (pushArr m c) (pullArr m c))
  have h2 : Pipeline.withArrays (cfgs 0).spec c (V0 m c) (fun w => (dats m 0 c).arrAt w (cfgs 0).N) (Proc.devRef .tc main_v16_0)
      = pushArr m c := Pipeline.withArrays_arr spec0 launch0.win.arr_inj c _ _ 2
  have h3 : Pipeline.withArrays (cfgs 0).spec c (V0 m c) (fun w => (dats m 0 c).arrAt w (cfgs 0).N) (Proc.devRef .tc main_v16_1)
      = pullArr m c := Pipeline.withArrays_arr spec0 launch0.win.arr_inj c _ _ 3
  unfold Pipeline.afterTail₀
  show StableHlo.after hostOps1 _ (Proc.devRef .tc main_v27) = _
  after_results
  exact congrArg₂ tail h2 h3

end Cert.KernelIdeal.Tail

end
-- ==== Proof.FinalArrays.lean ====
/-
  Each result window's block (1 × 1 × 128) at a point of level l is row l of its array (16 × 1 × 128), and it is
  written back exactly once per level, after the level's last point 21·l + 20. So after the run the array's
  entry (l, 0, lane) is what that point left in the staging buffer at (0, 0, lane).
-/
import proofs.«150267_j88673894793881_1_alg».proof.Proof.Gen.KernelIdeal.Frame
import Idealize.ShloMosaic.Lib.ValueIdx
import Idealize.ShloMosaic.Lib.Pipeline.Value

noncomputable section

namespace Cert.KernelIdeal.Final

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The grid has 336 points. -/
theorem hN : cfg0.N = 336 := N_0

/-- A level's last point is a point of the grid. -/
theorem last_lt (l : Fin 16) : 21 * l.val + 20 < cfg0.N := by
  have := l.isLt; rw [hN]; omega

/-- What the last point of level `l` left in the push block and in the pull block. -/
def lastPush (c : Dev nD) (l : Fin 16) : S1x1x128.Idx → EReal := (outsAt0 m c (21 * l.val + 20) (last_lt l)).1
def lastPull (c : Dev nD) (l : Fin 16) : S1x1x128.Idx → EReal := (outsAt0 m c (21 * l.val + 20) (last_lt l)).2

/-- A point `n = 21·l + 20` is the last point of level `l`. -/
theorem lastPush_eq (c : Dev nD) (l : Fin 16) (n : ℕ) (h : n < cfg0.N) (e : n = 21 * l.val + 20) :
    ((outsAt0 m c n h).1 : S1x1x128.Idx → EReal) = lastPush m c l := by subst e; rfl
theorem lastPull_eq (c : Dev nD) (l : Fin 16) (n : ℕ) (h : n < cfg0.N) (e : n = 21 * l.val + 20) :
    ((outsAt0 m c n h).2 : S1x1x128.Idx → EReal) = lastPull m c l := by subst e; rfl

/-- The two result arrays as whole arrays: row `l` is what the last point of level `l` left. -/
def pushArr (c : Dev nD) : S16x1x128.Idx → EReal := fun i =>
  lastPush m c ⟨(i 0).val, (i 0).isLt⟩ (ix3 (0 : Fin 1) (⟨(i 1).val, (i 1).isLt⟩ : Fin 1) (⟨(i 2).val, (i 2).isLt⟩ : Fin 128))
def pullArr (c : Dev nD) : S16x1x128.Idx → EReal := fun i =>
  lastPull m c ⟨(i 0).val, (i 0).isLt⟩ (ix3 (0 : Fin 1) (⟨(i 1).val, (i 1).isLt⟩ : Fin 1) (⟨(i 2).val, (i 2).isLt⟩ : Fin 128))

/-- The block index of both result windows at point `t` is (level of `t`, 0, 0). -/
theorem idx_facts : ∀ t : Fin cfg0.N,
    win0_2.index t (0 : Fin 3) = t.val / 21 ∧ win0_2.index t (1 : Fin 3) = 0 ∧ win0_2.index t (2 : Fin 3) = 0
    ∧ win0_3.index t (0 : Fin 3) = t.val / 21 ∧ win0_3.index t (1 : Fin 3) = 0 ∧ win0_3.index t (2 : Fin 3) = 0 :=
  (by decide +kernel : ∀ t : Fin grid0.N, _)

/-- What a flushing point writes back into the push array is its block of `pushArr`: the point is the last of its level. -/
theorem flushed2_eq (c : Dev nD) (t : Fin cfg0.N) (hf : (cfg0.win 2).flush t = true) :
    (dats m 0 c).flushed 2 t = ((cfg0.win 2).blk t).view.read (Elt Ideal) (pushArr m c) := by
  have h20 : t.val % 21 = 20 := (flush0_2 t).mp hf
  have ht : t.val < 336 := Nat.lt_of_lt_of_eq t.isLt hN
  obtain ⟨e0, e1, e2, -, -, -⟩ := idx_facts t
  show (cfg0.win 2).cut (grid0.coords t) ((dats m 0 c).after 2 t) = _
  rw [after0_2]
  funext y
  have y0 : (y 0).val < 1 := (y 0).isLt
  have y1 : (y 1).val < 1 := (y 1).isLt
  have y2 : (y 2).val < 128 := (y 2).isLt
  have hl : t.val / 21 < 16 := by omega
  show ((outsAt0 m c t.val t.isLt).1 : S1x1x128.Idx → EReal) (win0_2.xinj (grid0.coords t) y)
      = pushArr m c (((cfg0.win 2).blk t).view.emb y)
  rw [lastPush_eq m c ⟨t.val / 21, hl⟩ t.val t.isLt (by show t.val = 21 * (t.val / 21) + 20; omega)]
  unfold pushArr
  have a0 : ((((cfg0.win 2).blk t).view.emb y) 0).val = t.val / 21 := by
    show win0_2.index t (0 : Fin 3) * 1 + 1 * (y 0).val = _; omega
  have a1 : ((((cfg0.win 2).blk t).view.emb y) 1).val = (y 1).val := by
    show win0_2.index t (1 : Fin 3) * 1 + 1 * (y 1).val = _; omega
  have a2 : ((((cfg0.win 2).blk t).view.emb y) 2).val = (y 2).val := by
    show win0_2.index t (2 : Fin 3) * 128 + 1 * (y 2).val = _; omega
  refine congrArg₂ (lastPush m c) (Fin.ext a0.symm) (funext fun a => Fin.ext ?_)
  match a with
  | ⟨0, _⟩ => show (y 0).val = 0; omega
  | ⟨1, _⟩ => exact a1.symm
  | ⟨2, _⟩ => exact a2.symm

/-- Likewise for the pull array. -/
theorem flushed3_eq (c : Dev nD) (t : Fin cfg0.N) (hf : (cfg0.win 3).flush t = true) :
    (dats m 0 c).flushed 3 t = ((cfg0.win 3).blk t).view.read (Elt Ideal) (pullArr m c) := by
  have h20 : t.val % 21 = 20 := (flush0_3 t).mp hf
  have ht : t.val < 336 := Nat.lt_of_lt_of_eq t.isLt hN
  obtain ⟨-, -, -, e0, e1, e2⟩ := idx_facts t
  show (cfg0.win 3).cut (grid0.coords t) ((dats m 0 c).after 3 t) = _
  rw [after0_3]
  funext y
  have y0 : (y 0).val < 1 := (y 0).isLt
  have y1 : (y 1).val < 1 := (y 1).isLt
  have y2 : (y 2).val < 128 := (y 2).isLt
  have hl : t.val / 21 < 16 := by omega
  show ((outsAt0 m c t.val t.isLt).2 : S1x1x128.Idx → EReal) (win0_3.xinj (grid0.coords t) y)
      = pullArr m c (((cfg0.win 3).blk t).view.emb y)
  rw [lastPull_eq m c ⟨t.val / 21, hl⟩ t.val t.isLt (by show t.val = 21 * (t.val / 21) + 20; omega)]
  unfold pullArr
  have a0 : ((((cfg0.win 3).blk t).view.emb y) 0).val = t.val / 21 := by
    show win0_3.index t (0 : Fin 3) * 1 + 1 * (y 0).val = _; omega
  have a1 : ((((cfg0.win 3).blk t).view.emb y) 1).val = (y 1).val := by
    show win0_3.index t (1 : Fin 3) * 1 + 1 * (y 1).val = _; omega
  have a2 : ((((cfg0.win 3).blk t).view.emb y) 2).val = (y 2).val := by
    show win0_3.index t (2 : Fin 3) * 128 + 1 * (y 2).val = _; omega
  refine congrArg₂ (lastPull m c) (Fin.ext a0.symm) (funext fun a => Fin.ext ?_)
  match a with
  | ⟨0, _⟩ => show (y 0).val = 0; omega
  | ⟨1, _⟩ => exact a1.symm
  | ⟨2, _⟩ => exact a2.symm

/-- Entry (l, 0, 0) of either result array lies in the block of the last point of level `l`. -/
theorem mem2 (l : Fin 16) (h : 21 * l.val + 20 < cfg0.N) :
    (ix3 l (0 : Fin 1) (0 : Fin 128) : S16x1x128.Idx) ∈ ((cfg0.win 2).blk ⟨21 * l.val + 20, h⟩).view.set := by
  obtain ⟨e0, e1, e2, -, -, -⟩ := idx_facts ⟨21 * l.val + 20, h⟩
  have hl := l.isLt
  show (ix3 l (0 : Fin 1) (0 : Fin 128) : S16x1x128.Idx) ∈ ((View.whole main_v16_0).slice (win0_2.rect ⟨21 * l.val + 20, h⟩)).set
  rw [View.set_slice_whole, Rect.mem_set_unit]
  intro a
  match a with
  | ⟨0, _⟩ =>
    show win0_2.index ⟨21 * l.val + 20, h⟩ (0 : Fin 3) * 1 ≤ l.val ∧ l.val < win0_2.index ⟨21 * l.val + 20, h⟩ (0 : Fin 3) * 1 + 1
    rw [e0]; show (21 * l.val + 20) / 21 * 1 ≤ l.val ∧ l.val < (21 * l.val + 20) / 21 * 1 + 1; omega
  | ⟨1, _⟩ =>
    show win0_2.index ⟨21 * l.val + 20, h⟩ (1 : Fin 3) * 1 ≤ 0 ∧ 0 < win0_2.index ⟨21 * l.val + 20, h⟩ (1 : Fin 3) * 1 + 1
    rw [e1]; omega
  | ⟨2, _⟩ =>
    show win0_2.index ⟨21 * l.val + 20, h⟩ (2 : Fin 3) * 128 ≤ 0 ∧ 0 < win0_2.index ⟨21 * l.val + 20, h⟩ (2 : Fin 3) * 128 + 128
    rw [e2]; omega

theorem mem3 (l : Fin 16) (h : 21 * l.val + 20 < cfg0.N) :
    (ix3 l (0 : Fin 1) (0 : Fin 128) : S16x1x128.Idx) ∈ ((cfg0.win 3).blk ⟨21 * l.val + 20, h⟩).view.set := by
  obtain ⟨-, -, -, e0, e1, e2⟩ := idx_facts ⟨21 * l.val + 20, h⟩
  have hl := l.isLt
  show (ix3 l (0 : Fin 1) (0 : Fin 128) : S16x1x128.Idx) ∈ ((View.whole main_v16_1).slice (win0_3.rect ⟨21 * l.val + 20, h⟩)).set
  rw [View.set_slice_whole, Rect.mem_set_unit]
  intro a
  match a with
  | ⟨0, _⟩ =>
    show win0_3.index ⟨21 * l.val + 20, h⟩ (0 : Fin 3) * 1 ≤ l.val ∧ l.val < win0_3.index ⟨21 * l.val + 20, h⟩ (0 : Fin 3) * 1 + 1
    rw [e0]; show (21 * l.val + 20) / 21 * 1 ≤ l.val ∧ l.val < (21 * l.val + 20) / 21 * 1 + 1; omega
  | ⟨1, _⟩ =>
    show win0_3.index ⟨21 * l.val + 20, h⟩ (1 : Fin 3) * 1 ≤ 0 ∧ 0 < win0_3.index ⟨21 * l.val + 20, h⟩ (1 : Fin 3) * 1 + 1
    rw [e1]; omega
  | ⟨2, _⟩ =>
    show win0_3.index ⟨21 * l.val + 20, h⟩ (2 : Fin 3) * 128 ≤ 0 ∧ 0 < win0_3.index ⟨21 * l.val + 20, h⟩ (2 : Fin 3) * 128 + 128
    rw [e2]; omega

/-- The push array's lane 0 of level `l` after the run is lane 0 of what the level's last point left in the push block. -/
theorem pushArr_level (c : Dev nD) (l : Fin 16) (h : 21 * l.val + 20 < cfg0.N) :
    ((dats m 0 c).arrAt 2 cfg0.N : S16x1x128.Idx → EReal) (ix3 l (0 : Fin 1) (0 : Fin 128))
      = ((outsAt0 m c (21 * l.val + 20) h).1 : S1x1x128.Idx → EReal) (ix3 (0 : Fin 1) (0 : Fin 1) (0 : Fin 128)) := by
  have hfl : (cfg0.win 2).flush ⟨21 * l.val + 20, h⟩ = true :=
    (flush0_2 ⟨21 * l.val + 20, h⟩).mpr (by show (21 * l.val + 20) % 21 = 20; omega)
  refine ((dats m 0 c).arrAt_apply_of_mem 2 (pushArr m c) (flushed2_eq m c) cfg0.N ⟨21 * l.val + 20, h⟩
    (ix3 l (0 : Fin 1) (0 : Fin 128)) h hfl (mem2 l h)).trans ?_
  exact (congrFun (lastPush_eq m c l (21 * l.val + 20) h rfl) _).symm

/-- The pull array's lane 0 of level `l` after the run is lane 0 of what the level's last point left in the pull block. -/
theorem pullArr_level (c : Dev nD) (l : Fin 16) (h : 21 * l.val + 20 < cfg0.N) :
    ((dats m 0 c).arrAt 3 cfg0.N : S16x1x128.Idx → EReal) (ix3 l (0 : Fin 1) (0 : Fin 128))
      = ((outsAt0 m c (21 * l.val + 20) h).2 : S1x1x128.Idx → EReal) (ix3 (0 : Fin 1) (0 : Fin 1) (0 : Fin 128)) := by
  have hfl : (cfg0.win 3).flush ⟨21 * l.val + 20, h⟩ = true :=
    (flush0_3 ⟨21 * l.val + 20, h⟩).mpr (by show (21 * l.val + 20) % 21 = 20; omega)
  refine ((dats m 0 c).arrAt_apply_of_mem 3 (pullArr m c) (flushed3_eq m c) cfg0.N ⟨21 * l.val + 20, h⟩
    (ix3 l (0 : Fin 1) (0 : Fin 128)) h hfl (mem3 l h)).trans ?_
  exact (congrFun (lastPull_eq m c l (21 * l.val + 20) h rfl) _).symm

end Cert.KernelIdeal.Final

end
-- ==== Proof.BlockRows.lean ====
/-
  The grid has 16 · 21 points; point 21·l + a reads tile a of level l. Row n of that tile is row 441·a + n of
  level l of the array the window stages: the block index along the level axis is l, along the row axis a,
  and a block's coordinate in the array is always index × size + the coordinate inside the block.
-/
import proofs.«150267_j88673894793881_1_alg».proof.Proof.Gen.KernelIdeal.Frame
import proofs.«150267_j88673894793881_1_alg».proof.Proof.KernelTile
import proofs.«150267_j88673894793881_1_alg».proof.Proof.Spec
import Idealize.ShloMosaic.Lib.ValueIdx
import Idealize.ShloMosaic.Lib.Pipeline.Value

noncomputable section

namespace Cert.KernelIdeal.Rows

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The embeddings the region finds, as a function of (level, row, embedding, feature). -/
abbrev Eall (c : Dev nD) : S16x9261x30x4.Idx → EReal := V m c main_v6

/-- The centroids the region finds, as a function of (level, row, centroid, feature). -/
abbrev Call (c : Dev nD) : S16x9261x10x4.Idx → EReal := V m c main_v15

/-- Window 0's block index at grid point `t`: level `t / 21`, tile `t % 21`, and 0 along the two short axes
    (decided over the 336 points). -/
theorem idx0 : ∀ t : Fin cfg0.N, win0_0.index t 0 = t.val / 21 ∧ win0_0.index t 1 = t.val % 21
    ∧ win0_0.index t 2 = 0 ∧ win0_0.index t 3 = 0 :=
  (by decide +kernel : ∀ t : Fin grid0.N, win0_0.index t 0 = t.val / 21 ∧ win0_0.index t 1 = t.val % 21
    ∧ win0_0.index t 2 = 0 ∧ win0_0.index t 3 = 0)

/-- Window 1's block index at grid point `t`: the same map. -/
theorem idx1 : ∀ t : Fin cfg0.N, win0_1.index t 0 = t.val / 21 ∧ win0_1.index t 1 = t.val % 21
    ∧ win0_1.index t 2 = 0 ∧ win0_1.index t 3 = 0 :=
  (by decide +kernel : ∀ t : Fin grid0.N, win0_1.index t 0 = t.val / 21 ∧ win0_1.index t 1 = t.val % 21
    ∧ win0_1.index t 2 = 0 ∧ win0_1.index t 3 = 0)

/-- Row `n` of the embeddings block at point `21·l + a` is row `441·a + n` of level `l`. -/
theorem rowE_iblk (c : Dev nD) (l : Fin 16) (a : Fin 21) (n : Fin 441) (h : 21 * l.val + a.val < cfg0.N) :
    Tile.rowE (iblk m c 0 ⟨21 * l.val + a.val, h⟩) n = fun t f => Eall m c (ix4 l (Spec.rowOf a n) t f) := by
  have hl : l.val < 16 := l.isLt
  have ha : a.val < 21 := a.isLt
  -- The block index at point 21·l + a: (21·l + a) / 21 = l along the levels, (21·l + a) % 21 = a along the rows.
  have h0 : win0_0.index ⟨21 * l.val + a.val, h⟩ 0 = (21 * l.val + a.val) / 21 := (idx0 _).1
  have h1 : win0_0.index ⟨21 * l.val + a.val, h⟩ 1 = (21 * l.val + a.val) % 21 := (idx0 _).2.1
  have h2 : win0_0.index ⟨21 * l.val + a.val, h⟩ 2 = 0 := (idx0 _).2.2.1
  have h3 : win0_0.index ⟨21 * l.val + a.val, h⟩ 3 = 0 := (idx0 _).2.2.2
  funext t' f
  unfold Tile.rowE iblk
  rw [View.read_apply]
  -- Both sides read the staged array; it remains that the two indices agree, axis by axis:
  -- a block's element sits in the array at index × size + its coordinate inside the block.
  show V m c main_v6 _ = V m c main_v6 _
  refine congrArg (V m c main_v6) ?_
  funext ax
  apply Fin.ext
  match ax with
  | ⟨0, _⟩ => show win0_0.index ⟨21 * l.val + a.val, h⟩ 0 * 1 + 1 * 0 = l.val; rw [h0]; omega
  | ⟨1, _⟩ => show win0_0.index ⟨21 * l.val + a.val, h⟩ 1 * 441 + 1 * n.val = 441 * a.val + n.val; rw [h1]; omega
  | ⟨2, _⟩ => show win0_0.index ⟨21 * l.val + a.val, h⟩ 2 * 30 + 1 * t'.val = t'.val; rw [h2]; omega
  | ⟨3, _⟩ => show win0_0.index ⟨21 * l.val + a.val, h⟩ 3 * 4 + 1 * f.val = f.val; rw [h3]; omega

/-- Row `n` of the centroids block at point `21·l + a` is row `441·a + n` of level `l`. -/
theorem rowC_iblk (c : Dev nD) (l : Fin 16) (a : Fin 21) (n : Fin 441) (h : 21 * l.val + a.val < cfg0.N) :
    Tile.rowC (iblk m c 1 ⟨21 * l.val + a.val, h⟩) n = fun k f => Call m c (ix4 l (Spec.rowOf a n) k f) := by
  have hl : l.val < 16 := l.isLt
  have ha : a.val < 21 := a.isLt
  -- The block index at point 21·l + a: (21·l + a) / 21 = l along the levels, (21·l + a) % 21 = a along the rows.
  have h0 : win0_1.index ⟨21 * l.val + a.val, h⟩ 0 = (21 * l.val + a.val) / 21 := (idx1 _).1
  have h1 : win0_1.index ⟨21 * l.val + a.val, h⟩ 1 = (21 * l.val + a.val) % 21 := (idx1 _).2.1
  have h2 : win0_1.index ⟨21 * l.val + a.val, h⟩ 2 = 0 := (idx1 _).2.2.1
  have h3 : win0_1.index ⟨21 * l.val + a.val, h⟩ 3 = 0 := (idx1 _).2.2.2
  funext k f
  unfold Tile.rowC iblk
  rw [View.read_apply]
  -- Both sides read the staged array; it remains that the two indices agree, axis by axis:
  -- a block's element sits in the array at index × size + its coordinate inside the block.
  show V m c main_v15 _ = V m c main_v15 _
  refine congrArg (V m c main_v15) ?_
  funext ax
  apply Fin.ext
  match ax with
  | ⟨0, _⟩ => show win0_1.index ⟨21 * l.val + a.val, h⟩ 0 * 1 + 1 * 0 = l.val; rw [h0]; omega
  | ⟨1, _⟩ => show win0_1.index ⟨21 * l.val + a.val, h⟩ 1 * 441 + 1 * n.val = 441 * a.val + n.val; rw [h1]; omega
  | ⟨2, _⟩ => show win0_1.index ⟨21 * l.val + a.val, h⟩ 2 * 10 + 1 * k.val = k.val; rw [h2]; omega
  | ⟨3, _⟩ => show win0_1.index ⟨21 * l.val + a.val, h⟩ 3 * 4 + 1 * f.val = f.val; rw [h3]; omega

end Cert.KernelIdeal.Rows

end
-- ==== Proof.KernelValue.lean ====
/-
  The kernel program's result. Lane 0 of level l of the push array is what the level's last point left on lane 0
  of the push block: the sum over the level's 21 points of each point's push scalar; a point's push scalar is the
  sum over its tile's 441 rows of the row's push total, and row n of tile a of level l is row 441·a + n of level l
  of the gathered arrays. Regrouping the 21 · 441 rows as 9261 rows, lane 0 of level l is the sum over ALL the
  level's rows of the row's push total; likewise for pull. The host operations after the region turn the sixteen
  pairs of lanes into `Spec.total`.
-/
import proofs.«150267_j88673894793881_1_alg».proof.Proof.Gen.KernelIdeal.Frame
import proofs.«150267_j88673894793881_1_alg».proof.Proof.Spec
import proofs.«150267_j88673894793881_1_alg».proof.Proof.KernelTile
import proofs.«150267_j88673894793881_1_alg».proof.Proof.KernelAcc
import proofs.«150267_j88673894793881_1_alg».proof.Proof.KernelTail
import proofs.«150267_j88673894793881_1_alg».proof.Proof.FinalArrays
import proofs.«150267_j88673894793881_1_alg».proof.Proof.BlockRows
import Idealize.ShloMosaic.Lib.ValueIdx
import Idealize.ShloMosaic.Lib.Pipeline.Value

noncomputable section

namespace Cert.KernelIdeal.Value

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The embeddings of row `N` of level `l`, off the array the region finds. -/
abbrev rowE (c : Dev nD) (l : Fin 16) (N : Fin 9261) : Fin 30 → Fin 4 → EReal := fun t f => Rows.Eall m c (ix4 l N t f)

/-- The centroids of row `N` of level `l`, off the array the region finds. -/
abbrev rowC (c : Dev nD) (l : Fin 16) (N : Fin 9261) : Fin 10 → Fin 4 → EReal := fun k f => Rows.Call m c (ix4 l N k f)

theorem level_lt (l : Fin 16) (a : Fin 21) : 21 * l.val + a.val < cfg0.N := by
  rw [show cfg0.N = 336 from N_0]; have := l.isLt; have := a.isLt; omega

/-- Lane 0 of level `l` of the push array: the sum over all the level's rows of the row's push total. -/
theorem level_push (c : Dev nD) (l : Fin 16) :
    Tail.pushArr m c (ix3 l (0 : Fin 1) (0 : Fin 128)) = ∑ N : Fin 9261, Spec.rowPush (rowE m c l N) (rowC m c l N) := by
  have h20 : 21 * l.val + 20 < cfg0.N := level_lt l ⟨20, by omega⟩
  refine (Final.pushArr_level m c l h20).trans ?_
  refine (Acc.lane_push m c l.val 20 (by omega) h20).trans ?_
  rw [Spec.sum_rows_eq_tiles, Finset.sum_range]
  refine Finset.sum_congr rfl fun a _ => ?_
  have ha : 21 * l.val + a.val < cfg0.N := level_lt l a
  rw [Acc.pushAt, dif_pos ha]
  refine (Tile.pushTile_eq _ _).trans ?_
  refine Finset.sum_congr rfl fun n _ => ?_
  rw [Rows.rowE_iblk m c l a n ha, Rows.rowC_iblk m c l a n ha]

/-- Lane 0 of level `l` of the pull array: the sum over all the level's rows of the row's pull total. -/
theorem level_pull (c : Dev nD) (l : Fin 16) :
    Tail.pullArr m c (ix3 l (0 : Fin 1) (0 : Fin 128)) = ∑ N : Fin 9261, Spec.rowPull (rowE m c l N) (rowC m c l N) := by
  have h20 : 21 * l.val + 20 < cfg0.N := level_lt l ⟨20, by omega⟩
  refine (Final.pullArr_level m c l h20).trans ?_
  refine (Acc.lane_pull m c l.val 20 (by omega) h20).trans ?_
  rw [Spec.sum_rows_eq_tiles, Finset.sum_range]
  refine Finset.sum_congr rfl fun a _ => ?_
  have ha : 21 * l.val + a.val < cfg0.N := level_lt l a
  rw [Acc.pullAt, dif_pos ha]
  refine (Tile.pullTile_eq _ _).trans ?_
  refine Finset.sum_congr rfl fun n _ => ?_
  rw [Rows.rowE_iblk m c l a n ha, Rows.rowC_iblk m c l a n ha]

/-- The program's result as a number: `Spec.total` of the per-level sums over all rows. -/
def result (c : Dev nD) : EReal :=
  Spec.total (fun l => ∑ N : Fin 9261, Spec.rowPush (rowE m c l N) (rowC m c l N))
    (fun l => ∑ N : Fin 9261, Spec.rowPull (rowE m c l N) (rowC m c l N))

/-- … and as the contents of the rank-0 result buffer. -/
def resultBuf (c : Dev nD) : Buf (Elt Ideal) ((c.tc : Thread nD τ).loc main_v27) := fun _ => result m c

/-- What the host operations after the region leave in the result buffer is that number. -/
theorem afterTail_eq (c : Dev nD) :
    Pipeline.afterTail₀ cfgs (dats m) 0 (V0 m) [hostOps1] c main_v27 = resultBuf m c := by
  funext i
  obtain rfl : i = ix0 := eq_ix0 i
  refine (Tail.afterTail_main_v27 m c).trans ?_
  unfold resultBuf result
  congr 1
  · funext l; exact level_push m c l
  · funext l; exact level_pull m c l

/-- The run, read: every weakly fair execution ends with the result buffer at `resultBuf` and the arguments unchanged. -/
theorem run : θ_run defs (onTc (τ := τ) (main (F := Ideal))) ⟨m, fun _ => 0, ρ⟩ fun r => ∀ c : Dev nD,
      r.2.mem ((c.tc : Thread nD τ).loc main_v27) = resultBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v27 (Pipeline.mem_restRefs_of main_v27 (by decide) (by decide))).trans (afterTail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.LibSums.lean ====
/-
  Two general readings of a host sum over SEVERAL trailing axes, at the extended reals.

  The host's float `reduce … add` at a kept index `j` is the initial value plus the sum of the operand
  over every index that drops to `j`. When the kept axis is the leading one and the summed axes are all
  the others, the indices that drop to `j` are exactly `(j, b, c)` (rank 3) or `(j, b, c, d)` (rank 4),
  each once, so the sum is the nested sum over the trailing coordinates. Stated for any extents.
-/
import Idealize.ShloMosaic.PureOps.Ideal
import Idealize.ShloMosaic.PureOps.Ideal.Laws
import Idealize.ShloMosaic.PureOps.Reduce
import Idealize.ShloMosaic.Lib.ValueIdx

noncomputable section

namespace Cert.LibSums

open Idealize.ShloMosaic Idealize.ShloMosaic.ValueIdx

/-- A sum over the two trailing axes of a rank-3 array, kept axis first: at `j` it is the initial value
    plus the double sum over `(b, c)` of the operand at `(j, b, c)`. -/
theorem hostReduceAdd_trailing2 {A B C : Nat}
    (h : Shape.ReducesTo (⟨3, ![A, B, C]⟩ : Shape) [1, 2] (⟨1, ![A]⟩ : Shape))
    (x : (⟨3, ![A, B, C]⟩ : Shape).Idx → EReal) (init : EReal) (j : Fin A) :
    Ideal.hostReduceAdd h x init (ix1 j) = init + ∑ b : Fin B, ∑ c : Fin C, x (ix3 j b c) := by
  unfold Ideal.hostReduceAdd
  congr 1
  rw [← Fintype.sum_prod_type']
  refine Finset.sum_nbij' (fun i => ((i 1 : Fin B), (i 2 : Fin C))) (fun p => ix3 j p.1 p.2) ?_ ?_ ?_ ?_ ?_
  · intro i _; exact Finset.mem_univ _
  · intro p _
    refine Finset.mem_filter.2 ⟨Finset.mem_univ _, ?_⟩
    funext b; match b with | ⟨0, _⟩ => rfl
  · intro i hi
    have hj := (Finset.mem_filter.1 hi).2
    have h0 : (i 0 : Fin A) = j := by
      have := congrFun hj (0 : Fin 1)
      exact Fin.ext (congrArg Fin.val this)
    funext a; match a with
    | ⟨0, _⟩ => exact h0.symm
    | ⟨1, _⟩ => rfl
    | ⟨2, _⟩ => rfl
  · intro p _; rfl
  · intro i hi
    have hj := (Finset.mem_filter.1 hi).2
    have h0 : (i 0 : Fin A) = j := by
      have := congrFun hj (0 : Fin 1)
      exact Fin.ext (congrArg Fin.val this)
    refine congrArg x ?_
    funext a; match a with
    | ⟨0, _⟩ => exact h0
    | ⟨1, _⟩ => rfl
    | ⟨2, _⟩ => rfl

/-- A sum over the three trailing axes of a rank-4 array, kept axis first: at `j` it is the initial value
    plus the triple sum over `(b, c, d)` of the operand at `(j, b, c, d)`. -/
theorem hostReduceAdd_trailing3 {A B C D : Nat}
    (h : Shape.ReducesTo (⟨4, ![A, B, C, D]⟩ : Shape) [1, 2, 3] (⟨1, ![A]⟩ : Shape))
    (x : (⟨4, ![A, B, C, D]⟩ : Shape).Idx → EReal) (init : EReal) (j : Fin A) :
    Ideal.hostReduceAdd h x init (ix1 j) = init + ∑ b : Fin B, ∑ c : Fin C, ∑ d : Fin D, x (ix4 j b c d) := by
  unfold Ideal.hostReduceAdd
  congr 1
  have e : (∑ b : Fin B, ∑ c : Fin C, ∑ d : Fin D, x (ix4 j b c d))
      = ∑ p : Fin B × Fin C × Fin D, x (ix4 j p.1 p.2.1 p.2.2) := by
    rw [Fintype.sum_prod_type]
    refine Finset.sum_congr rfl fun b _ => ?_
    rw [Fintype.sum_prod_type]
  rw [e]
  refine Finset.sum_nbij' (fun i => ((i 1 : Fin B), (i 2 : Fin C), (i 3 : Fin D))) (fun p => ix4 j p.1 p.2.1 p.2.2) ?_ ?_ ?_ ?_ ?_
  · intro i _; exact Finset.mem_univ _
  · intro p _
    refine Finset.mem_filter.2 ⟨Finset.mem_univ _, ?_⟩
    funext b; match b with | ⟨0, _⟩ => rfl
  · intro i hi
    have hj := (Finset.mem_filter.1 hi).2
    have h0 : (i 0 : Fin A) = j := by
      have := congrFun hj (0 : Fin 1)
      exact Fin.ext (congrArg Fin.val this)
    funext a; match a with
    | ⟨0, _⟩ => exact h0.symm
    | ⟨1, _⟩ => rfl
    | ⟨2, _⟩ => rfl
    | ⟨3, _⟩ => rfl
  · intro p _; rfl
  · intro i hi
    have hj := (Finset.mem_filter.1 hi).2
    have h0 : (i 0 : Fin A) = j := by
      have := congrFun hj (0 : Fin 1)
      exact Fin.ext (congrArg Fin.val this)
    refine congrArg x ?_
    funext a; match a with
    | ⟨0, _⟩ => exact h0
    | ⟨1, _⟩ => rfl
    | ⟨2, _⟩ => rfl
    | ⟨3, _⟩ => rfl

end Cert.LibSums

end
-- ==== Proof.RefValue.lean ====
/-
  The reference, read at the extended reals: from the gathered embeddings (16 levels × 9261 rows × 30 × 4)
  and the gathered centroids (16 × 9261 × 10 × 4) it computes, per level, the sum over all 9261 rows of the
  row functions of Spec.lean, divides by the counts and adds up.

  The reading goes array by array. Every intermediate array of the reference, read at an index whose first
  two coordinates are (level l, row N), is one of the row functions of Spec.lean at the row (l, N): a
  broadcast only repeats an entry along a unit axis, a sum over the last axis is the sum over the four
  features or the ten centroids, and the three contractions are the inner products ⟨E t, C k⟩,
  Σ_k sa t k · C k f and ⟨sc t, sc s⟩. The zero word every sum starts from is the extended real 0, and
  0 + x = x. No other law is used: on both sides stands the same expression.
-/
import proofs.«150267_j88673894793881_1_alg».proof.Proof.Gen.ReferenceIdeal.Read
import proofs.«150267_j88673894793881_1_alg».proof.Proof.Spec
import proofs.«150267_j88673894793881_1_alg».proof.Proof.LibSums
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

/-- Row `N` of level `l` of the gathered embeddings: embedding `t`, feature `f`. -/
def rowE (Eall : S16x9261x30x4.Idx → EReal) (l : Fin 16) (N : Fin 9261) : Fin 30 → Fin 4 → EReal :=
  fun t f => Eall (ix4 l N t f)

/-- Row `N` of level `l` of the gathered centroids: centroid `k`, feature `f`. -/
def rowC (Call : S16x9261x10x4.Idx → EReal) (l : Fin 16) (N : Fin 9261) : Fin 10 → Fin 4 → EReal :=
  fun k f => Call (ix4 l N k f)

section Stages

variable (x0 : (⟨S16x524288x4, .f32⟩ : BufTy).Contents (Elt Ideal)) (x1 : (⟨S10x16x65536x4, .f32⟩ : BufTy).Contents (Elt Ideal))
  (x2 : (⟨S16x9261x30, .i32⟩ : BufTy).Contents (Elt Ideal)) (x3 : (⟨S16x9261, .i32⟩ : BufTy).Contents (Elt Ideal))

/-- The embeddings of row `(l, N)`. -/
local notation "E" => rowE (val_main_v6 (F := Ideal) x0 x2)
/-- The centroids of row `(l, N)`. -/
local notation "C" => rowC (val_main_v15 (F := Ideal) x1 x3)

/-- The zero word is the extended real 0. -/
theorem zero_word : (Ideal.ofBits .f32 0x00000000#32 : EReal) = 0 := Ideal.ofBits_zero_f32

/-- |E t|²: the sum over the four features of the squares. -/
theorem v17_at (l : Fin 16) (N : Fin 9261) (t : Fin 30) :
    val_main_v17 (F := Ideal) x0 x2 (ix3 l N t) = ∑ f : Fin 4, E l N t f * E l N t f := by
  rw [val_main_v17_apply]
  refine (congrArg (· + _) zero_word).trans ((zero_add _).trans ?_)
  refine Finset.sum_congr rfl fun f _ => ?_
  have e : idx_main_v17 (ix3 l N t) f = ix4 l N t f :=
    funext fun a => Fin.ext (by match a with | ⟨0, _⟩ => rfl | ⟨1, _⟩ => rfl | ⟨2, _⟩ => rfl | ⟨3, _⟩ => rfl)
  rw [e]; rfl

/-- |C k|². -/
theorem v20_at (l : Fin 16) (N : Fin 9261) (k : Fin 10) :
    val_main_v20 (F := Ideal) x1 x3 (ix3 l N k) = ∑ f : Fin 4, C l N k f * C l N k f := by
  rw [val_main_v20_apply]
  refine (congrArg (· + _) zero_word).trans ((zero_add _).trans ?_)
  refine Finset.sum_congr rfl fun f _ => ?_
  have e : idx_main_v20 (ix3 l N k) f = ix4 l N k f :=
    funext fun a => Fin.ext (by match a with | ⟨0, _⟩ => rfl | ⟨1, _⟩ => rfl | ⟨2, _⟩ => rfl | ⟨3, _⟩ => rfl)
  rw [e]; rfl

/-- ⟨E t, C k⟩. -/
theorem v25_at (l : Fin 16) (N : Fin 9261) (t : Fin 30) (k : Fin 10) :
    val_main_v25 (F := Ideal) x0 x1 x2 x3 (ix4 l N t k) = ∑ f : Fin 4, E l N t f * C l N k f := by
  rw [val_main_v25_apply]
  refine Finset.sum_congr rfl fun f _ => ?_
  have e1 : lidx_main_v25 (ix4 l N t k) f = ix4 l N t f :=
    funext fun a => Fin.ext (by match a with | ⟨0, _⟩ => rfl | ⟨1, _⟩ => rfl | ⟨2, _⟩ => rfl | ⟨3, _⟩ => rfl)
  have e2 : ridx_main_v25 (ix4 l N t k) f = ix4 l N k f :=
    funext fun a => Fin.ext (by match a with | ⟨0, _⟩ => rfl | ⟨1, _⟩ => rfl | ⟨2, _⟩ => rfl | ⟨3, _⟩ => rfl)
  rw [e1, e2]; rfl

/-- The squared distance, by the expanded formula. -/
theorem v28_at (l : Fin 16) (N : Fin 9261) (t : Fin 30) (k : Fin 10) :
    val_main_v28 (F := Ideal) x0 x1 x2 x3 (ix4 l N t k) = Spec.dist (E l N) (C l N) t k := by
  rw [val_main_v28_apply, val_main_v24_apply, val_main_v27_apply, val_main_v22_apply, val_main_v18_apply,
    val_main_v23_apply, val_main_v21_apply]
  have e1 : idx_main_v18 (idx_main_v22 (ix4 l N t k)) = ix3 l N t :=
    funext fun a => Fin.ext (by match a with | ⟨0, _⟩ => rfl | ⟨1, _⟩ => rfl | ⟨2, _⟩ => rfl)
  have e2 : idx_main_v21 (idx_main_v23 (ix4 l N t k)) = ix3 l N k :=
    funext fun a => Fin.ext (by match a with | ⟨0, _⟩ => rfl | ⟨1, _⟩ => rfl | ⟨2, _⟩ => rfl)
  rw [e1, e2, v17_at, v20_at, v25_at]
  rfl

/-- The unnormalised soft assignment. -/
theorem v32_at (l : Fin 16) (N : Fin 9261) (t : Fin 30) (k : Fin 10) :
    val_main_v32 (F := Ideal) x0 x1 x2 x3 (ix4 l N t k) = Spec.wt (E l N) (C l N) t k := by
  rw [val_main_v32_apply, val_main_v31_apply, val_main_v29_apply, v28_at]
  rfl

/-- The normaliser Σ_k' wt t k' + epsA, kept along a unit axis. -/
theorem v36_at (l : Fin 16) (N : Fin 9261) (t : Fin 30) (z : Fin 1) :
    val_main_v36 (F := Ideal) x0 x1 x2 x3 (ix4 l N t z)
      = (∑ k' : Fin 10, Spec.wt (E l N) (C l N) t k') + Spec.epsA := by
  rw [val_main_v36_apply, val_main_v34_apply]
  have e : idx_main_v34 (ix4 l N t z) = ix3 l N t :=
    funext fun a => Fin.ext (by match a with | ⟨0, _⟩ => rfl | ⟨1, _⟩ => rfl | ⟨2, _⟩ => rfl)
  rw [e, val_main_v33_apply]
  refine congrArg₂ (· + ·) ?_ rfl
  refine (congrArg (· + _) zero_word).trans ((zero_add _).trans ?_)
  refine Finset.sum_congr rfl fun k _ => ?_
  have e' : idx_main_v33 (ix3 l N t) k = ix4 l N t k :=
    funext fun a => Fin.ext (by match a with | ⟨0, _⟩ => rfl | ⟨1, _⟩ => rfl | ⟨2, _⟩ => rfl | ⟨3, _⟩ => rfl)
  rw [e', v32_at]

/-- The soft assignment. -/
theorem v38_at (l : Fin 16) (N : Fin 9261) (t : Fin 30) (k : Fin 10) :
    val_main_v38 (F := Ideal) x0 x1 x2 x3 (ix4 l N t k) = Spec.sa (E l N) (C l N) t k := by
  rw [val_main_v38_apply, val_main_v37_apply]
  have e : idx_main_v37 (ix4 l N t k) = ix4 l N t (0 : Fin 1) :=
    funext fun a => Fin.ext (by match a with | ⟨0, _⟩ => rfl | ⟨1, _⟩ => rfl | ⟨2, _⟩ => rfl | ⟨3, _⟩ => rfl)
  rw [e, v36_at, v32_at]
  rfl

/-- The soft centroid: Σ_k sa t k · C k f. -/
theorem v39_at (l : Fin 16) (N : Fin 9261) (t : Fin 30) (f : Fin 4) :
    val_main_v39 (F := Ideal) x0 x1 x2 x3 (ix4 l N t f) = Spec.sc (E l N) (C l N) t f := by
  rw [val_main_v39_apply]
  refine Finset.sum_congr rfl fun k _ => ?_
  have e1 : lidx_main_v39 (ix4 l N t f) k = ix4 l N t k :=
    funext fun a => Fin.ext (by match a with | ⟨0, _⟩ => rfl | ⟨1, _⟩ => rfl | ⟨2, _⟩ => rfl | ⟨3, _⟩ => rfl)
  have e2 : ridx_main_v39 (ix4 l N t f) k = ix4 l N k f :=
    funext fun a => Fin.ext (by match a with | ⟨0, _⟩ => rfl | ⟨1, _⟩ => rfl | ⟨2, _⟩ => rfl | ⟨3, _⟩ => rfl)
  rw [e1, e2, v38_at]; rfl

/-- The pull term of embedding `t`. -/
theorem v42_at (l : Fin 16) (N : Fin 9261) (t : Fin 30) :
    val_main_v42 (F := Ideal) x0 x1 x2 x3 (ix3 l N t) = Spec.pull (E l N) (C l N) t := by
  rw [val_main_v42_apply]
  refine (congrArg (· + _) zero_word).trans ((zero_add _).trans ?_)
  refine Finset.sum_congr rfl fun f _ => ?_
  have e : idx_main_v42 (ix3 l N t) f = ix4 l N t f :=
    funext fun a => Fin.ext (by match a with | ⟨0, _⟩ => rfl | ⟨1, _⟩ => rfl | ⟨2, _⟩ => rfl | ⟨3, _⟩ => rfl)
  rw [e, val_main_v41_apply, val_main_v40_apply, v39_at]; rfl

/-- The squared norm of the soft centroid. -/
theorem v47_at (l : Fin 16) (N : Fin 9261) (t : Fin 30) :
    val_main_v47 (F := Ideal) x0 x1 x2 x3 (ix3 l N t) = Spec.sn (E l N) (C l N) t := by
  rw [val_main_v47_apply]
  refine (congrArg (· + _) zero_word).trans ((zero_add _).trans ?_)
  refine Finset.sum_congr rfl fun f _ => ?_
  have e : idx_main_v47 (ix3 l N t) f = ix4 l N t f :=
    funext fun a => Fin.ext (by match a with | ⟨0, _⟩ => rfl | ⟨1, _⟩ => rfl | ⟨2, _⟩ => rfl | ⟨3, _⟩ => rfl)
  rw [e, val_main_v46_apply, v39_at]; rfl

/-- ⟨sc t, sc s⟩. -/
theorem v53_at (l : Fin 16) (N : Fin 9261) (t s : Fin 30) :
    val_main_v53 (F := Ideal) x0 x1 x2 x3 (ix4 l N t s)
      = ∑ f : Fin 4, Spec.sc (E l N) (C l N) t f * Spec.sc (E l N) (C l N) s f := by
  rw [val_main_v53_apply]
  refine Finset.sum_congr rfl fun f _ => ?_
  have e1 : lidx_main_v53 (ix4 l N t s) f = ix4 l N t f :=
    funext fun a => Fin.ext (by match a with | ⟨0, _⟩ => rfl | ⟨1, _⟩ => rfl | ⟨2, _⟩ => rfl | ⟨3, _⟩ => rfl)
  have e2 : ridx_main_v53 (ix4 l N t s) f = ix4 l N s f :=
    funext fun a => Fin.ext (by match a with | ⟨0, _⟩ => rfl | ⟨1, _⟩ => rfl | ⟨2, _⟩ => rfl | ⟨3, _⟩ => rfl)
  rw [e1, e2, v39_at, v39_at]

/-- The push term of the pair `(t, s)`. -/
theorem v64_at (l : Fin 16) (N : Fin 9261) (t s : Fin 30) :
    val_main_v64 (F := Ideal) x0 x1 x2 x3 (ix4 l N t s) = Spec.push (E l N) (C l N) t s := by
  rw [val_main_v64_apply, val_main_v62_apply, val_main_v60_apply, val_main_v58_apply, val_main_v56_apply,
    val_main_v52_apply, val_main_v55_apply, val_main_v50_apply, val_main_v48_apply, val_main_v51_apply,
    val_main_v49_apply]
  have e1 : idx_main_v48 (idx_main_v50 (ix4 l N t s)) = ix3 l N t :=
    funext fun a => Fin.ext (by match a with | ⟨0, _⟩ => rfl | ⟨1, _⟩ => rfl | ⟨2, _⟩ => rfl)
  have e2 : idx_main_v49 (idx_main_v51 (ix4 l N t s)) = ix3 l N s :=
    funext fun a => Fin.ext (by match a with | ⟨0, _⟩ => rfl | ⟨1, _⟩ => rfl | ⟨2, _⟩ => rfl)
  have ez : val_main_v57 (F := Ideal) (ix4 l N t s) = 0 := zero_word
  rw [e1, e2, v47_at, v47_at, v53_at, ez]
  rfl

/-- A sum over the indices of a one-axis array is the sum over its coordinate. -/
theorem sum_idx1 {n : Nat} (g : (⟨1, ![n]⟩ : Shape).Idx → EReal) : ∑ j, g j = ∑ a : Fin n, g (ix1 a) :=
  Fintype.sum_equiv ⟨fun j => (j 0 : Fin n), ix1, fun j => (eq_ix1 j).symm, fun _ => rfl⟩ _ _
    fun j => congrArg g (eq_ix1 j)

/-- A level's pull total: the sum over its rows of the rows' pull terms. -/
theorem v43_at (l : Fin 16) :
    val_main_v43 (F := Ideal) x0 x1 x2 x3 (ix1 l) = ∑ N : Fin 9261, Spec.rowPull (E l N) (C l N) := by
  unfold val_main_v43
  generalize hy : val_main_v42 (F := Ideal) x0 x1 x2 x3 = y
  simp only [Host.reduceAdd, Ideal.hostReduceAdd_def]
  refine (Cert.LibSums.hostReduceAdd_trailing2 _ y _ l).trans ?_
  refine (congrArg (· + _) zero_word).trans ((zero_add _).trans ?_)
  refine Finset.sum_congr rfl fun N _ => ?_
  unfold Spec.rowPull
  refine Finset.sum_congr rfl fun t _ => ?_
  rw [← hy, v42_at]

/-- A level's pull total over the number of its embeddings. -/
theorem v45_at (l : Fin 16) :
    val_main_v45 (F := Ideal) x0 x1 x2 x3 (ix1 l)
      = Ideal.div (∑ N : Fin 9261, Spec.rowPull (E l N) (C l N)) Spec.nPull := by
  rw [val_main_v45_apply, v43_at]
  rfl

/-- A level's push total: the sum over its rows of the rows' push terms. -/
theorem v65_at (l : Fin 16) :
    val_main_v65 (F := Ideal) x0 x1 x2 x3 (ix1 l) = ∑ N : Fin 9261, Spec.rowPush (E l N) (C l N) := by
  unfold val_main_v65
  generalize hy : val_main_v64 (F := Ideal) x0 x1 x2 x3 = y
  simp only [Host.reduceAdd, Ideal.hostReduceAdd_def]
  refine (Cert.LibSums.hostReduceAdd_trailing3 _ y _ l).trans ?_
  refine (congrArg (· + _) zero_word).trans ((zero_add _).trans ?_)
  refine Finset.sum_congr rfl fun N _ => ?_
  unfold Spec.rowPush
  refine Finset.sum_congr rfl fun t _ => ?_
  refine Finset.sum_congr rfl fun s _ => ?_
  rw [← hy, v64_at]

/-- A level's push total over the number of its pairs. -/
theorem v67_at (l : Fin 16) :
    val_main_v67 (F := Ideal) x0 x1 x2 x3 (ix1 l)
      = Ideal.div (∑ N : Fin 9261, Spec.rowPush (E l N) (C l N)) Spec.nPush := by
  rw [val_main_v67_apply, v65_at]
  rfl

end Stages

/-- The reference's result is `Spec.total` of the per-level sums over all rows of the row functions, the rows
    read off the two gathered arrays. -/
theorem ref_eq (x0 : (⟨S16x524288x4, .f32⟩ : BufTy).Contents (Elt Ideal)) (x1 : (⟨S10x16x65536x4, .f32⟩ : BufTy).Contents (Elt Ideal))
    (x2 : (⟨S16x9261x30, .i32⟩ : BufTy).Contents (Elt Ideal)) (x3 : (⟨S16x9261, .i32⟩ : BufTy).Contents (Elt Ideal)) :
    val_main_v70 (F := Ideal) x0 x1 x2 x3 ix0
      = Spec.total
          (fun l => ∑ N : Fin 9261, Spec.rowPush (rowE (val_main_v6 (F := Ideal) x0 x2) l N) (rowC (val_main_v15 (F := Ideal) x1 x3) l N))
          (fun l => ∑ N : Fin 9261, Spec.rowPull (rowE (val_main_v6 (F := Ideal) x0 x2) l N) (rowC (val_main_v15 (F := Ideal) x1 x3) l N)) := by
  rw [val_main_v70_apply, val_main_v68_apply, val_main_v69_apply]
  unfold Spec.total
  refine congrArg₂ (· + ·) ?_ ?_
  · refine (congrArg (· + _) zero_word).trans ((zero_add _).trans ?_)
    rw [sum_idx1]
    exact Finset.sum_congr rfl fun l _ => v67_at x0 x1 x2 x3 l
  · refine (congrArg (· + _) zero_word).trans ((zero_add _).trans ?_)
    rw [sum_idx1]
    exact Finset.sum_congr rfl fun l _ => v45_at x0 x1 x2 x3 l

end Cert.ReferenceIdeal.RefValue

end
-- ==== Proof.Gathered.lean ====
/-
  Both programs begin with the same host operations: negative indices are wrapped by the table's length and
  the rows are gathered. So the embeddings and centroids the kernel region finds are the reference's gathered
  arrays of the same arguments.
-/
import proofs.«150267_j88673894793881_1_alg».proof.Proof.Gen.KernelIdeal.Frame
import proofs.«150267_j88673894793881_1_alg».proof.Proof.Gen.ReferenceIdeal.Read
import Idealize.ShloMosaic.Lib.StableHlo.Run

noncomputable section

namespace Cert.Gathered

open Idealize.ShloMosaic Idealize.ShloMosaic.TcCoe Idealize.SL.Sem

variable (m : (ℓ : Loc Cert.KernelIdeal.nD Cert.KernelIdeal.τ Cert.KernelIdeal.sig) → Buf (Elt Ideal) ℓ)

/-- The embeddings the kernel region finds are the reference's gathered embeddings of the same arguments. -/
theorem V_main_v6 (c : Dev Cert.KernelIdeal.nD) :
    (Cert.KernelIdeal.Gen.V m c Cert.KernelIdeal.main_v6 : Cert.KernelIdeal.S16x9261x30x4.Idx → EReal)
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  -- The region-entry contents are the fold of the one stretch of host operations over the launch contents.
  show StableHlo.after Cert.KernelIdeal.Gen.hostOps0 (fun b => m (c, b)) (Proc.devRef .tc Cert.KernelIdeal.main_v6) = _
  -- Read the fold at the gathered embeddings: the gather of argument 0 at the wrapped index with a trailing unit
  -- axis, the wrapped index being "the index plus the table's length where the index is negative, else the index".
  open Idealize.ShloMosaic.StableHlo in after_results
  -- The reference names the same composition operation by operation; spelled out, the two sides coincide.
  unfold Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
  rfl

/-- The centroids the kernel region finds are the reference's gathered centroids of the same arguments. -/
theorem V_main_v15 (c : Dev Cert.KernelIdeal.nD) :
    (Cert.KernelIdeal.Gen.V m c Cert.KernelIdeal.main_v15 : Cert.KernelIdeal.S16x9261x10x4.Idx → EReal)
      = Cert.ReferenceIdeal.Read.val_main_v15 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)) := by
  -- The region-entry contents are the fold of the one stretch of host operations over the launch contents.
  show StableHlo.after Cert.KernelIdeal.Gen.hostOps0 (fun b => m (c, b)) (Proc.devRef .tc Cert.KernelIdeal.main_v15) = _
  -- Read the fold at the gathered centroids: argument 1 with its two leading axes exchanged, gathered at the wrapped
  -- index with a trailing unit axis, then the centroid axis moved behind the point axis.
  open Idealize.ShloMosaic.StableHlo in after_results
  -- The reference names the same composition operation by operation; spelled out, the two sides coincide.
  unfold Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_c_1 Cert.ReferenceIdeal.Read.val_main_c_2
  rfl

end Cert.Gathered

end
-- ==== Proof.lean ====
/-
  The claim: the word-level kernel, its idealization and the idealized reference all run to completion with their
  arguments unchanged, and the two idealized programs end with the same result over the extended reals.

  The kernel is a push–pull loss over sixteen levels of a hash-grid embedding. Per level, 9261 rows are gathered
  (thirty embeddings and ten centroids of four features each); a row's soft centroids are formed from the
  squared distances, and the row contributes a pull total (embeddings to their soft centroids) and a push total
  (over all pairs of soft centroids). The reference sums each level's row totals over all 9261 rows at once; the
  kernel walks a 16 × 21 grid, one tile of 441 rows per point, adds each tile's two totals on lane 0 of two
  per-level accumulator blocks, and after the region divides by the counts and sums over the levels exactly as the
  reference does. Over the extended reals a sum of 9261 terms is the sum of its 21 groups of 441, so the two
  results are one number: `Spec.total` of the per-level sums of the row functions of Spec.lean. The gathered
  arrays are the same on both sides: both programs begin with the same host operations on the same arguments.
  The ideal pass rewrote nothing, so its conjunct is `True`.
-/
import proofs.«150267_j88673894793881_1_alg».proof.Defs
import proofs.«150267_j88673894793881_1_alg».proof.Proof.Gen.Kernel
import proofs.«150267_j88673894793881_1_alg».proof.Proof.Gen.Kernel.Skeleton
import proofs.«150267_j88673894793881_1_alg».proof.Proof.Gen.Kernel.Launch
import proofs.«150267_j88673894793881_1_alg».proof.Proof.Gen.Kernel.Points
import proofs.«150267_j88673894793881_1_alg».proof.Proof.Gen.Kernel.Frame
import proofs.«150267_j88673894793881_1_alg».proof.Proof.Gen.KernelIdeal
import proofs.«150267_j88673894793881_1_alg».proof.Proof.Gen.KernelIdeal.Skeleton
import proofs.«150267_j88673894793881_1_alg».proof.Proof.Gen.KernelIdeal.Launch
import proofs.«150267_j88673894793881_1_alg».proof.Proof.Gen.KernelIdeal.Points
import proofs.«150267_j88673894793881_1_alg».proof.Proof.Gen.KernelIdeal.Frame
import proofs.«150267_j88673894793881_1_alg».proof.Proof.Gen.ReferenceIdeal
import proofs.«150267_j88673894793881_1_alg».proof.Proof.Gen.ReferenceIdeal.Run
import proofs.«150267_j88673894793881_1_alg».proof.Proof.Gen.ReferenceIdeal.Read
import proofs.«150267_j88673894793881_1_alg».proof.Proof.Gen.Pre_finite_inputs
import proofs.«150267_j88673894793881_1_alg».proof.Proof.KernelValue
import proofs.«150267_j88673894793881_1_alg».proof.Proof.RefValue
import proofs.«150267_j88673894793881_1_alg».proof.Proof.Gathered
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result, from memories that agree with the kernel's on the four arguments, is the kernel's
    result: the reference's term is `Spec.total` of the per-level sums over all rows, the rows read off ITS gathered
    arrays, and those are the arrays the kernel's region finds. -/
theorem ref_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v70 (F := Ideal) m' c = Cert.KernelIdeal.Value.resultBuf m c := by
  funext i
  obtain rfl : i = ix0 := eq_ix0 i
  rw [Cert.ReferenceIdeal.Read.val_main_v70_eq, h0, h1, h2, h3]
  refine (Cert.ReferenceIdeal.RefValue.ref_eq _ _ _ _).trans ?_
  rw [← Cert.Gathered.V_main_v6 m c, ← Cert.Gathered.V_main_v15 m c]
  rfl

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference has no kernel: its frame is its run with the result dropped
    exact fun m ρ _ => (θ_run Cert.ReferenceIdeal.defs _ _).mono (fun _ h c => (h c).2)
      (Cert.ReferenceIdeal.Value.run (F := Ideal) m ρ)
  · intro m ρ m' ρ' _ hagree
    refine ⟨fun c => Cert.KernelIdeal.Value.resultBuf m c, Cert.KernelIdeal.Value.run m ρ, ?_⟩
    refine (θ_run Cert.ReferenceIdeal.defs _ _).mono (fun _ h c => ⟨(h c).1.trans ?_, (h c).2⟩)
      (Cert.ReferenceIdeal.Value.run (F := Ideal) m' ρ')
    exact ref_result m m' c (hagree c).1 (hagree c).2.1 (hagree c).2.2.1 (hagree c).2.2.2⟩

end Cert.Proof

end
